-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x64 : Shape := ⟨2, ![1024, 64]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  main_v18

def fn {F : FTy → Type} [FloatOps F] (main_arg0 : FVec F S8x2048x1024 .f32) (main_arg1 : FVec F S1024x64 .f32) (main_arg2 : FVec F S1024x64 .f32) (main_arg3 : FVec F S1024x64 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_v13 main_v16
-- ==== Kernel.lean ====
abbrev S8x2048x1024 : Shape := ⟨3, ![8, 2048, 1024]⟩
abbrev S1024x64 : Shape := ⟨2, ![1024, 64]⟩
abbrev S8x2048x64 : Shape := ⟨3, ![8, 2048, 64]⟩
abbrev S1x2048x1024 : Shape := ⟨3, ![1, 2048, 1024]⟩
abbrev S1x2048x64 : Shape := ⟨3, ![1, 2048, 64]⟩
abbrev S2048x64 : Shape := ⟨2, ![2048, 64]⟩
abbrev S2048x1024 : Shape := ⟨2, ![2048, 1024]⟩
abbrev S512x64 : Shape := ⟨2, ![512, 64]⟩
abbrev S512x1 : Shape := ⟨2, ![512, 1]⟩
abbrev S512x512 : Shape := ⟨2, ![512, 512]⟩
abbrev S512 : Shape := ⟨1, ![512]⟩
abbrev S1x512x64 : Shape := ⟨3, ![1, 512, 64]⟩

abbrev nBuf : Space → Nat
  | .hbm => 5
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S8x2048x64, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1x2048x64, .f32⟩
  | .local _ .vmem, ⟨6, _⟩ => ⟨S1x2048x64, .f32⟩
  | .local _ .vmem, ⟨7, _⟩ => ⟨S2048x64, .bf16⟩
  | .local _ .vmem, ⟨8, _⟩ => ⟨S2048x64, .bf16⟩
  | .local _ .vmem, ⟨9, _⟩ => ⟨S2048x64, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  inb_S2048x64_S512x64_0_0 : ∀ a, (![0, 0] : Fin 2 → Nat) a + S512x64.size a ≤ S2048x64.size a
  h_S512x64 : 0 < S512x64.numel
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  broadcasts_S512x1_S512x64 : S512x1.Broadcasts S512x64
  inb_S1x2048x64_S1x512x64_0_0_0 : ∀ a, (![0, 0, 0] : Fin 3 → Nat) a + S1x512x64.size a ≤ S1x2048x64.size a
  h_S1x512x64 : 0 < S1x512x64.numel
  shapeCasts_S1x512x64_S512x64 : S1x512x64.ShapeCasts S512x64
  shapeCasts_S512x64_S1x512x64 : S512x64.ShapeCasts S1x512x64
  inb_S2048x64_S512x64_512_0 : ∀ a, (![512, 0] : Fin 2 → Nat) a + S512x64.size a ≤ S2048x64.size a
  inb_S1x2048x64_S1x512x64_0_512_0 : ∀ a, (![0, 512, 0] : Fin 3 → Nat) a + S1x512x64.size a ≤ S1x2048x64.size a
  inb_S2048x64_S512x64_1024_0 : ∀ a, (![1024, 0] : Fin 2 → Nat) a + S512x64.size a ≤ S2048x64.size a
  inb_S1x2048x64_S1x512x64_0_1024_0 : ∀ a, (![0, 1024, 0] : Fin 3 → Nat) a + S1x512x64.size a ≤ S1x2048x64.size a
  inb_S2048x64_S512x64_1536_0 : ∀ a, (![1536, 0] : Fin 2 → Nat) a + S512x64.size a ≤ S2048x64.size a
  inb_S1x2048x64_S1x512x64_0_1536_0 : ∀ a, (![0, 1536, 0] : Fin 3 → Nat) a + S1x512x64.size a ≤ S1x2048x64.size a
  dot_S2048x1024_S1024x64_S2048x64_1_0_0_1_n_n_wf : DotDims.WF S2048x1024 S1024x64 S2048x64 [1] [0] [0] [1] [] []
  dot_S512x64_S512x64_S512x512_1_1_0_0_n_n_wf : DotDims.WF S512x64 S512x64 S512x512 [1] [1] [0] [0] [] []
  dot_S512x512_S512x64_S512x64_1_0_0_1_n_n_wf : DotDims.WF S512x512 S512x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x2048x1024.size a
  hwx0_0 : ∀ i : grid0.Coords, EltTy.bits .f32 = 32 ∨ (Rect.block (s := S8x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S1024x64.size a
  hwx0_2 : ∀ i : grid0.Coords, EltTy.bits .f32 = 32 ∨ (Rect.block (s := S1024x64) S1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .f32 = 32 ∨ (Rect.block (s := S1024x64) S1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x64.size a ≤ S8x2048x64.size a
  hwx0_4 : ∀ i : grid0.Coords, EltTy.bits .f32 = 32 ∨ (Rect.block (s := S8x2048x64) S1x2048x64.size (cc0_transform_4 i) (hinb0_4 i)).WholeWords (EltTy.packing .f32)

variable [Facts₀]

def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S512x64_S512x64_S512x512_1_1_0_0_n_n : DotDims S512x64 S512x64 S512x512 where
  lhsContracting := [1]
  rhsContracting := [1]
  lhsNonContracting := [0]
  rhsNonContracting := [0]
  lhsBatch := []
  rhsBatch := []
  wf := dot_S512x64_S512x64_S512x512_1_1_0_0_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x2048x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S1024x64 : Shape := ⟨2, ![1024, 64]⟩
abbrev S8x2048x64 : Shape := ⟨3, ![8, 2048, 64]⟩
abbrev S_ : Shape := ⟨0, ![]⟩
abbrev S8x2048x2048 : Shape := ⟨3, ![8, 2048, 2048]⟩
abbrev S2048x2048 : Shape := ⟨2, ![2048, 2048]⟩
abbrev S1x2048x2048 : Shape := ⟨3, ![1, 2048, 2048]⟩
abbrev S8x2048 : Shape := ⟨2, ![8, 2048]⟩
abbrev S8x2048x1 : Shape := ⟨3, ![8, 2048, 1]⟩

abbrev nBuf : Space → Nat
  | .hbm => 45
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S8x2048x64, .f32⟩
  | .hbm, ⟨5, _⟩ => ⟨S8x2048x64, .f32⟩
  | .hbm, ⟨6, _⟩ => ⟨S8x2048x64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S_, .i1⟩
  | .hbm, ⟨15, _⟩ => ⟨S2048x2048, .i1⟩
  | .hbm, ⟨16, _⟩ => ⟨S2048x2048, .i32⟩
  | .hbm, ⟨17, _⟩ => ⟨S_, .i32⟩
  | .hbm, ⟨18, _⟩ => ⟨S2048x2048, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S_, .i1⟩
  | .hbm, ⟨23, _⟩ => ⟨S2048x2048, .i1⟩
  | .hbm, ⟨24, _⟩ => ⟨S2048x2048, .i1⟩
  | .hbm, ⟨25, _⟩ => ⟨S1x2048x2048, .i1⟩
  | .hbm, ⟨26, _⟩ => ⟨S_, .f32⟩
  | .hbm, ⟨27, _⟩ => ⟨S8x2048x2048, .i1⟩
  | .hbm, ⟨28, _⟩ => ⟨S8x2048x2048, .f32⟩
  | .hbm, ⟨29, _⟩ => ⟨S8x2048x2048, .f32⟩
  | .hbm, ⟨30, _⟩ => ⟨S_, .f32⟩
  | .hbm, ⟨31, _⟩ => ⟨S8x2048, .f32⟩
  | .hbm, ⟨32, _⟩ => ⟨S_, .f32⟩
  | .hbm, ⟨33, _⟩ => ⟨S8x2048, .f32⟩
  | .hbm, ⟨34, _⟩ => ⟨S8x2048, .f32⟩
  | .hbm, ⟨35, _⟩ => ⟨S8x2048x1, .f32⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S_, .f32⟩
  | .hbm, ⟨40, _⟩ => ⟨S8x2048, .f32⟩
  | .hbm, ⟨41, _⟩ => ⟨S8x2048x1, .f32⟩
  | .hbm, ⟨42, _⟩ => ⟨S8x2048x2048, .f32⟩
  | .hbm, ⟨43, _⟩ => ⟨S8x2048x2048, .f32⟩
  | .hbm, ⟨44, _⟩ => ⟨S8x2048x64, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_0 : Ref sig .tc := ⟨.hbm, 22, rfl⟩
abbrev main_call0_v5 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_call1_v0 : Ref sig .tc := ⟨.hbm, 27, rfl⟩
abbrev main_call1_v1 : Ref sig .tc := ⟨.hbm, 28, rfl⟩
abbrev main_v11 : Ref sig .tc := ⟨.hbm, 29, rfl⟩
abbrev main_cst_2 : Ref sig .tc := ⟨.hbm, 30, rfl⟩
abbrev main_v12 : Ref sig .tc := ⟨.hbm, 31, rfl⟩
abbrev main_cst_3 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x64_S8x2048x64_2_0_01_1_n_n_wf : DotDims.WF S8x2048x1024 S1024x64 S8x2048x64 [2] [0] [0, 1] [1] [] []
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x1024_S1024x64_S8x2048x64_2_0_01_1_n_n : DotDims S8x2048x1024 S1024x64 S8x2048x64 where
  lhsContracting := [2]
  rhsContracting := [0]
  lhsNonContracting := [0, 1]
  rhsNonContracting := [1]
  lhsBatch := []
  rhsBatch := []
  wf := dot_S8x2048x1024_S1024x64_S8x2048x64_2_0_01_1_n_n_wf
def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.AttnTile.lean ====
/-
  One key tile of causal attention as the kernel body spells it, over 512 query rows at a time: the
  score tile (a product of a query tile with a key tile, contracted over the 64 head coordinates), the
  causal mask on a diagonal tile (entries above the diagonal replaced by the named constant that stands
  for minus infinity), and one step of the running (online) softmax: the running maximum, the rescaling
  factor, the running normaliser and the running weighted sum of value rows. The four output tiles of
  the kernel body are compositions of these steps, which is stated here as definitional equalities
  with the body's payload terms.
-/
import proofs.«421553_j55147380081195_3_alg».proof.Proof.Gen.KernelIdeal.Skeleton

set_option maxRecDepth 16384

noncomputable section

namespace Cert.KernelIdeal.Tile

open Idealize.ShloMosaic Idealize.SL.Sem Cert.KernelIdeal Cert.KernelIdeal.Gen

variable {F : FTy → Type} [FloatOps F] [Named F]

/-- The running state of the online softmax over 512 query rows: the running maximum `m`, the running
    normaliser `l` (both one column) and the running weighted sum of value rows `acc`. -/
structure St (F : FTy → Type) where
  m : FVec F S512x1 .f32
  l : FVec F S512x1 .f32
  acc : FVec F S512x64 .f32

/-- Before any key tile: maximum minus infinity, normaliser and sum zero. -/
def init : St F :=
  ⟨broadcast S512x1 (Scalar.ofBits .f32 0xFF800000#32), broadcast S512x1 (Scalar.ofBits .f32 0x00000000#32),
   broadcast S512x64 (Scalar.ofBits .f32 0x00000000#32)⟩

/-- The score tile: query rows against key rows, contracted over the head coordinate. -/
def scoresT (q k : Vec F S512x64 .bf16) : FVec F S512x512 .f32 :=
  matmul dot_S512x64_S512x64_S512x512_1_1_0_0_n_n none q k (constant S512x512 .f32 0x00000000#32)

/-- The causal mask of a diagonal tile: column after row is replaced by the named minus infinity. -/
def maskT (s : FVec F S512x512 .f32) : FVec F S512x512 .f32 :=
  select (cmpi .sge (iota .tc S512x512 32 [0] iota_S512x512_d0_w32) (iota .tc S512x512 32 [1] iota_S512x512_d1_w32)) s
    (broadcast S512x512 (Named.named κ "neg_big" 0xFF333332#32))

/-- The new running maximum: the old one against each row's maximum over the tile. -/
def stepM (s : FVec F S512x512 .f32) (m : FVec F S512x1 .f32) : FVec F S512x1 .f32 :=
  maximumf m (shapeCast S512x1 (multiReduction .maximumf [1] S512 s 0xFF800000#32 reduces_S512x512_S512 (.inl rfl) rfl) shapeCasts_S512_S512x1)

/-- The rescaling factor e^(old maximum - new maximum). -/
def stepA (s : FVec F S512x512 .f32) (m : FVec F S512x1 .f32) : FVec F S512x1 .f32 :=
  exp (subf m (stepM s m))

/-- The tile's unnormalised probabilities e^(score - new maximum). -/
def stepP (s : FVec F S512x512 .f32) (m : FVec F S512x1 .f32) : FVec F S512x512 .f32 :=
  exp (subf s (broadcastTo S512x512 (stepM s m) broadcasts_S512x1_S512x512))

/-- One step of the online softmax over a key tile with scores `s` and value rows `v`. -/
def step (s : FVec F S512x512 .f32) (v : Vec F S512x64 .bf16) (σ : St F) : St F :=
  ⟨stepM s σ.m,
   addf (mulf (stepA s σ.m) σ.l)
     (shapeCast S512x1 (multiReduction .add [1] S512 (stepP s σ.m) 0x00000000#32 reduces_S512x512_S512 (.inl rfl) rfl) shapeCasts_S512_S512x1),
   addf (mulf (broadcastTo S512x64 (stepA s σ.m) broadcasts_S512x1_S512x64) σ.acc)
     (matmul dot_S512x512_S512x64_S512x64_1_0_0_1_n_n none (truncf .bf16 (stepP s σ.m) bitsLt_bf16_f32) v (constant S512x64 .f32 0x00000000#32))⟩

/-- The output tile: the weighted sum divided by the normaliser, as a [1,512,64] piece. -/
def out (σ : St F) : FVec F S1x512x64 .f32 :=
  shapeCast S1x512x64 (divf σ.acc (broadcastTo S512x64 σ.l broadcasts_S512x1_S512x64)) shapeCasts_S512x64_S1x512x64

/-- The four output tiles, by query tile: the earlier key tiles unmasked, the diagonal one masked. -/
def tile0 (q0 k0 v0 : Vec F S512x64 .bf16) : FVec F S1x512x64 .f32 :=
  out (step (maskT (scoresT q0 k0)) v0 init)
def tile1 (q1 k0 v0 k1 v1 : Vec F S512x64 .bf16) : FVec F S1x512x64 .f32 :=
  out (step (maskT (scoresT q1 k1)) v1 (step (scoresT q1 k0) v0 init))
def tile2 (q2 k0 v0 k1 v1 k2 v2 : Vec F S512x64 .bf16) : FVec F S1x512x64 .f32 :=
  out (step (maskT (scoresT q2 k2)) v2 (step (scoresT q2 k1) v1 (step (scoresT q2 k0) v0 init)))
def tile3 (q3 k0 v0 k1 v1 k2 v2 k3 v3 : Vec F S512x64 .bf16) : FVec F S1x512x64 .f32 :=
  out (step (maskT (scoresT q3 k3)) v3 (step (scoresT q3 k2) v2 (step (scoresT q3 k1) v1 (step (scoresT q3 k0) v0 init))))

/-! ## The body's payload terms are these tiles -/

theorem piece0_eq (q0 k0 v0 : Vec F S512x64 .bf16) :
    k0_pay9 q0 (k0_pay6 (F := F)) (k0_pay7 (F := F)) (k0_pay8 (F := F)) k0 v0 = tile0 q0 k0 v0 := rfl

theorem piece1_eq (q1 k0 v0 k1 v1 : Vec F S512x64 .bf16) :
    k0_pay15 q1 (k0_pay10 (F := F)) (k0_pay11 (F := F)) (k0_pay12 (F := F)) v0 (k0_pay13 q1 k0) (k0_pay14 q1 k0) k1 v1
      = tile1 q1 k0 v0 k1 v1 := rfl

theorem piece2_eq (q2 k0 v0 k1 v1 k2 v2 : Vec F S512x64 .bf16) :
    k0_pay27 q2 (k0_pay21 q2 k0 v0) v1 (k0_pay23 q2 k0 k1) (k0_pay24 q2 k0 k1) (k0_pay25 q2 k0 k1) (k0_pay26 q2 k0 k1) k2 v2
      = tile2 q2 k0 v0 k1 v1 k2 v2 := rfl

theorem piece3_eq (q3 k0 v0 k1 v1 k2 v2 k3 v3 : Vec F S512x64 .bf16) :
    k0_pay1 (k0_pay41 q3 (k0_pay36 q3 (k0_pay28 (F := F)) k0 k1) (k0_pay39 q3 (k0_pay28 (F := F)) (k0_pay29 (F := F)) k0 k1)
      (k0_pay40 q3 (k0_pay28 (F := F)) (k0_pay30 (F := F)) k0 v0 k1 v1) k2 v2 k3 v3)
      = tile3 q3 k0 v0 k1 v1 k2 v2 k3 v3 := rfl

end Cert.KernelIdeal.Tile

end
-- ==== Proof.KernelPieces.lean ====
/-
  What one grid point of the kernel leaves in its output block, as four tiles of 512 query rows: the
  body first writes the three projections of the sequence block whole into its scratch buffers, then for
  query tile i reads rows [512 i, 512 i + 512) of the query projection and, key tile by key tile up to the
  diagonal one, the matching rows of the key and value projections; the output rows [512 i, 512 i + 512)
  are tile i's online-softmax result.
-/
import proofs.«421553_j55147380081195_3_alg».proof.Proof.Gen.KernelIdeal.Frame
import proofs.«421553_j55147380081195_3_alg».proof.Proof.AttnTile
import Idealize.ShloMosaic.Lib.ValueIdx
import Idealize.ShloMosaic.Lib.Pipeline.Value

set_option maxRecDepth 16384

noncomputable section

namespace Cert.KernelIdeal.Pieces

open Idealize.ShloMosaic Idealize.ShloMosaic.ValueIdx Idealize.ShloMosaic.TcCoe Idealize.ShloMosaic.Tactic
open Idealize.SL Idealize.SL.Sem Cert.KernelIdeal Cert.KernelIdeal.Gen Cert.KernelIdeal.Tile

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- Rows [o, o + 512) of a [2048, 64] array. -/
def rowsAt (o : Nat) (inb : ∀ a, (![o, 0] : Fin 2 → Nat) a + S512x64.size a ≤ S2048x64.size a)
    (A : FVec F S2048x64 .bf16) : Vec F S512x64 .bf16 :=
  fun j => A ((Rect.unit (s := S2048x64) ![o, 0] S512x64.size inb).toLoadRect.idx j)

/-- Output tile 0: query rows [0, 512) against key tile 0, masked. -/
def blk0 (x0 : Vec F S1x2048x1024 .f32) (x1 x2 x3 : Vec F S1024x64 .f32) : FVec F S1x512x64 .f32 :=
  tile0 (rowsAt 0 inb_S2048x64_S512x64_0_0 (k0_pay3 x0 x1))
    (rowsAt 0 inb_S2048x64_S512x64_0_0 (k0_pay4 x0 x2)) (rowsAt 0 inb_S2048x64_S512x64_0_0 (k0_pay5 x0 x3))

/-- Output tile 1: query rows [512, 1024) against key tile 0, then key tile 1 masked. -/
def blk1 (x0 : Vec F S1x2048x1024 .f32) (x1 x2 x3 : Vec F S1024x64 .f32) : FVec F S1x512x64 .f32 :=
  tile1 (rowsAt 512 inb_S2048x64_S512x64_512_0 (k0_pay3 x0 x1))
    (rowsAt 0 inb_S2048x64_S512x64_0_0 (k0_pay4 x0 x2)) (rowsAt 0 inb_S2048x64_S512x64_0_0 (k0_pay5 x0 x3))
    (rowsAt 512 inb_S2048x64_S512x64_512_0 (k0_pay4 x0 x2)) (rowsAt 512 inb_S2048x64_S512x64_512_0 (k0_pay5 x0 x3))

/-- Output tile 2: query rows [1024, 1536) against key tiles 0 and 1, then key tile 2 masked. -/
def blk2 (x0 : Vec F S1x2048x1024 .f32) (x1 x2 x3 : Vec F S1024x64 .f32) : FVec F S1x512x64 .f32 :=
  tile2 (rowsAt 1024 inb_S2048x64_S512x64_1024_0 (k0_pay3 x0 x1))
    (rowsAt 0 inb_S2048x64_S512x64_0_0 (k0_pay4 x0 x2)) (rowsAt 0 inb_S2048x64_S512x64_0_0 (k0_pay5 x0 x3))
    (rowsAt 512 inb_S2048x64_S512x64_512_0 (k0_pay4 x0 x2)) (rowsAt 512 inb_S2048x64_S512x64_512_0 (k0_pay5 x0 x3))
    (rowsAt 1024 inb_S2048x64_S512x64_1024_0 (k0_pay4 x0 x2)) (rowsAt 1024 inb_S2048x64_S512x64_1024_0 (k0_pay5 x0 x3))

/-- Output tile 3: query rows [1536, 2048) against key tiles 0, 1 and 2, then key tile 3 masked. -/
def blk3 (x0 : Vec F S1x2048x1024 .f32) (x1 x2 x3 : Vec F S1024x64 .f32) : FVec F S1x512x64 .f32 :=
  tile3 (rowsAt 1536 inb_S2048x64_S512x64_1536_0 (k0_pay3 x0 x1))
    (rowsAt 0 inb_S2048x64_S512x64_0_0 (k0_pay4 x0 x2)) (rowsAt 0 inb_S2048x64_S512x64_0_0 (k0_pay5 x0 x3))
    (rowsAt 512 inb_S2048x64_S512x64_512_0 (k0_pay4 x0 x2)) (rowsAt 512 inb_S2048x64_S512x64_512_0 (k0_pay5 x0 x3))
    (rowsAt 1024 inb_S2048x64_S512x64_1024_0 (k0_pay4 x0 x2)) (rowsAt 1024 inb_S2048x64_S512x64_1024_0 (k0_pay5 x0 x3))
    (rowsAt 1536 inb_S2048x64_S512x64_1536_0 (k0_pay4 x0 x2)) (rowsAt 1536 inb_S2048x64_S512x64_1536_0 (k0_pay5 x0 x3))

/-- The block's output as the four tiles, last written first. -/
def pieces (x0 : Vec F S1x2048x1024 .f32) (x1 x2 x3 : Vec F S1024x64 .f32) : List (View.Piece (Elt F) S1x2048x64 .f32) :=
  [⟨Rect.unit ![0, 1536, 0] ![1, 512, 64] inb_S1x2048x64_S1x512x64_0_1536_0, blk3 x0 x1 x2 x3⟩,
   ⟨Rect.unit ![0, 1024, 0] ![1, 512, 64] inb_S1x2048x64_S1x512x64_0_1024_0, blk2 x0 x1 x2 x3⟩,
   ⟨Rect.unit ![0, 512, 0] ![1, 512, 64] inb_S1x2048x64_S1x512x64_0_512_0, blk1 x0 x1 x2 x3⟩,
   ⟨Rect.unit ![0, 0, 0] ![1, 512, 64] inb_S1x2048x64_S1x512x64_0_0_0, blk0 x0 x1 x2 x3⟩]

set_option maxHeartbeats 2000000 in
/-- What the run leaves in the output's staging buffer is the canonical contents of those four tiles. -/
theorem out_eq_canon (c : Dev nD) (i : grid0.Coords) (arg1 : Memref sig .tc .vmem S1x2048x1024 .f32) (harg1 : arg1.IsWhole) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x2048x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S2048x64 .bf16) (harg8 : arg8.IsWhole)
    (x0 : Vec F S1x2048x1024 .f32) (x1 : Vec F S1024x64 .f32) (x2 : Vec F S1024x64 .f32) (x3 : Vec F S1024x64 .f32) :
    out0_A_4 c i arg1 harg1 arg2 harg2 arg3 harg3 arg4 harg4 arg5 harg5 arg6 harg6 arg7 harg7 arg8 harg8 x0 x1 x2 x3 = View.canon (pieces x0 x1 x2 x3) := by
  unfold out0_A_4
  rw [View.read_writes_eq_canon _ _ _ (cover0_A_4 c i arg1 harg1 arg2 harg2 arg3 harg3 arg4 harg4 arg5 harg5 arg6 harg6 arg7 harg7 arg8 harg8 x0 x1 x2 x3)]
  unfold kernelRun0_A
  dsimp only
  sl_unfold_words
  simp only [View.readAt_eq_ld, harg1.read_unread, harg2.read_unread, harg3.read_unread, harg4.read_unread,
    View.ld_unit_zero (S := S1x2048x1024) hz3, View.ld_unit_zero (S := S1024x64) hz2,
    View.readCov_eq_canon', View.canon_unit_zero (S := S2048x64) hz2]
  rw [piece0_eq, piece1_eq, piece2_eq, piece3_eq]
  rfl

/-! ## The canonical contents at a row of each tile -/

/-- A tile's own index (0, r, h) sits at row o + r of the block. -/
theorem emb_tile (o : Nat) (inb : ∀ a, (![0, o, 0] : Fin 3 → Nat) a + (![1, 512, 64] : Fin 3 → Nat) a ≤ S1x2048x64.size a)
    (r : Fin 512) (h : Fin 64) (hlt : o + r.val < 2048) :
    (Rect.unit (s := S1x2048x64) ![0, o, 0] ![1, 512, 64] inb).emb (ix3 (0 : Fin 1) r h) = ix3 (0 : Fin 1) ⟨o + r.val, hlt⟩ h := by
  funext a; apply Fin.ext
  match a with
  | ⟨0, _⟩ => rfl
  | ⟨1, _⟩ => show o + 1 * r.val = o + r.val; omega
  | ⟨2, _⟩ => show 0 + 1 * h.val = h.val; omega

/-- A row outside [o, o + 512) is not in the tile at o. -/
theorem not_mem_tile (o : Nat) (inb : ∀ a, (![0, o, 0] : Fin 3 → Nat) a + (![1, 512, 64] : Fin 3 → Nat) a ≤ S1x2048x64.size a)
    (t : Fin 2048) (h : Fin 64) (hout : t.val < o ∨ o + 512 ≤ t.val) :
    ix3 (0 : Fin 1) t h ∉ (Rect.unit (s := S1x2048x64) ![0, o, 0] ![1, 512, 64] inb).set := by
  rw [Rect.mem_set_unit]
  intro hm
  have h1 : o ≤ t.val ∧ t.val < o + 512 := hm 1
  omega

/-- A tile written at rows [o, o + 512) does not show at a row outside them. -/
theorem canon_skip (o : Nat) (inb : ∀ a, (![0, o, 0] : Fin 3 → Nat) a + (![1, 512, 64] : Fin 3 → Nat) a ≤ S1x2048x64.size a)
    (w : FVec F S1x512x64 .f32) (L : List (View.Piece (Elt F) S1x2048x64 .f32))
    (t : Fin 2048) (h : Fin 64) (hout : t.val < o ∨ o + 512 ≤ t.val) :
    View.canon ((⟨Rect.unit (s := S1x2048x64) ![0, o, 0] ![1, 512, 64] inb, w⟩ : View.Piece (Elt F) S1x2048x64 .f32) :: L) (ix3 (0 : Fin 1) t h)
      = View.canon L (ix3 (0 : Fin 1) t h) :=
  View.canon_cons_of_not_mem (⟨Rect.unit (s := S1x2048x64) ![0, o, 0] ![1, 512, 64] inb, w⟩ : View.Piece (Elt F) S1x2048x64 .f32) L
    (not_mem_tile o inb t h hout)

variable (x0 : Vec F S1x2048x1024 .f32) (x1 x2 x3 : Vec F S1024x64 .f32)

theorem canon_row3 (r : Fin 512) (h : Fin 64) (hlt : 1536 + r.val < 2048) :
    View.canon (pieces x0 x1 x2 x3) (ix3 (0 : Fin 1) ⟨1536 + r.val, hlt⟩ h) = blk3 x0 x1 x2 x3 (ix3 (0 : Fin 1) r h) := by
  unfold pieces
  rw [← emb_tile 1536 inb_S1x2048x64_S1x512x64_0_1536_0 r h hlt, View.canon_cons_emb]

theorem canon_row2 (r : Fin 512) (h : Fin 64) (hlt : 1024 + r.val < 2048) :
    View.canon (pieces x0 x1 x2 x3) (ix3 (0 : Fin 1) ⟨1024 + r.val, hlt⟩ h) = blk2 x0 x1 x2 x3 (ix3 (0 : Fin 1) r h) := by
  unfold pieces
  rw [canon_skip 1536 inb_S1x2048x64_S1x512x64_0_1536_0 _ _ ⟨1024 + r.val, hlt⟩ h (Or.inl (by show 1024 + r.val < 1536; omega))]
  rw [← emb_tile 1024 inb_S1x2048x64_S1x512x64_0_1024_0 r h hlt, View.canon_cons_emb]

theorem canon_row1 (r : Fin 512) (h : Fin 64) (hlt : 512 + r.val < 2048) :
    View.canon (pieces x0 x1 x2 x3) (ix3 (0 : Fin 1) ⟨512 + r.val, hlt⟩ h) = blk1 x0 x1 x2 x3 (ix3 (0 : Fin 1) r h) := by
  unfold pieces
  rw [canon_skip 1536 inb_S1x2048x64_S1x512x64_0_1536_0 _ _ ⟨512 + r.val, hlt⟩ h (Or.inl (by show 512 + r.val < 1536; omega))]
  rw [canon_skip 1024 inb_S1x2048x64_S1x512x64_0_1024_0 _ _ ⟨512 + r.val, hlt⟩ h (Or.inl (by show 512 + r.val < 1024; omega))]
  rw [← emb_tile 512 inb_S1x2048x64_S1x512x64_0_512_0 r h hlt, View.canon_cons_emb]

theorem canon_row0 (r : Fin 512) (h : Fin 64) (hlt : 0 + r.val < 2048) :
    View.canon (pieces x0 x1 x2 x3) (ix3 (0 : Fin 1) ⟨0 + r.val, hlt⟩ h) = blk0 x0 x1 x2 x3 (ix3 (0 : Fin 1) r h) := by
  unfold pieces
  rw [canon_skip 1536 inb_S1x2048x64_S1x512x64_0_1536_0 _ _ ⟨0 + r.val, hlt⟩ h (Or.inl (by show 0 + r.val < 1536; omega))]
  rw [canon_skip 1024 inb_S1x2048x64_S1x512x64_0_1024_0 _ _ ⟨0 + r.val, hlt⟩ h (Or.inl (by show 0 + r.val < 1024; omega))]
  rw [canon_skip 512 inb_S1x2048x64_S1x512x64_0_512_0 _ _ ⟨0 + r.val, hlt⟩ h (Or.inl (by show 0 + r.val < 512; omega))]
  rw [← emb_tile 0 inb_S1x2048x64_S1x512x64_0_0_0 r h hlt, View.canon_cons_emb]

/-- Rows of a [2048, 64] array read at an index. -/
theorem rowsAt_apply (o : Nat) (inb : ∀ a, (![o, 0] : Fin 2 → Nat) a + S512x64.size a ≤ S2048x64.size a)
    (A : FVec F S2048x64 .bf16) (r : Fin 512) (h : Fin 64) (hlt : o + r.val < 2048) :
    rowsAt o inb A (ix2 r h) = A (ix2 ⟨o + r.val, hlt⟩ h) := by
  unfold rowsAt
  congr 1
  funext a; apply Fin.ext
  match a with
  | ⟨0, _⟩ => show o + 1 * r.val = o + r.val; omega
  | ⟨1, _⟩ => show 0 + 1 * h.val = h.val; omega

end Cert.KernelIdeal.Pieces

end
-- ==== Proof.LibOnlineSoftmax.lean ====
/-
  The online (running-maximum) softmax against the plain softmax, on the extended reals.

  A score is an extended real that is a real number or minus infinity (a masked entry); its weight
  is e^score, zero at minus infinity. Plain softmax-weighted averaging of real values v_k with
  scores s_k is (sum_k e^{s_k} v_k) / (sum_k e^{s_k}): subtracting any real M from every score
  multiplies numerator and denominator by e^{-M}. The online form keeps a running maximum m, a
  normaliser l = e^{-m} W and a weighted sum a = e^{-m} A, where W and A are the sums of weights and
  of weighted values over the keys seen so far; a step over a further tile of keys rescales both by
  e^{m - m'} for the new maximum m' and adds the tile's terms e^{s_k - m'} and e^{s_k - m'} v_k.
  Because e^{m - m'} e^{-m} = e^{-m'}, the invariant is kept; at the start m is minus infinity and
  l, a, W, A are zero, and the rescaling factor e^{-inf} is zero.
-/
import Idealize.ShloMosaic.PureOps.Ideal

noncomputable section

open scoped BigOperators

namespace Cert.OnlineSoftmax

open Idealize.ShloMosaic

/-- The weight e^s of an extended-real score: zero at minus infinity. -/
def wt (s : EReal) : ℝ := (Ideal.exp s).toReal

theorem wt_bot : wt ⊥ = 0 := by
  simp [wt]

theorem wt_coe (σ : ℝ) : wt (σ : EReal) = Real.exp σ := by
  simp [wt]

theorem wt_nonneg (s : EReal) : 0 ≤ wt s := by
  induction s using EReal.rec with
  | bot => rw [wt_bot]
  | coe r => rw [wt_coe]; exact (Real.exp_pos r).le
  | top => simp [wt]

/-- A real score has a positive weight. -/
private theorem wt_pos {s : EReal} (h1 : s ≠ ⊤) (h2 : s ≠ ⊥) : 0 < wt s := by
  induction s using EReal.rec with
  | bot => exact absurd rfl h2
  | coe r => rw [wt_coe]; exact Real.exp_pos r
  | top => exact absurd rfl h1

/-- A finite family of scores, none plus infinity and one of them real, has a positive total weight. -/
theorem sum_wt_pos {ι : Type*} [Fintype ι] (s : ι → EReal) (hs : ∀ k, s k ≠ ⊤) (hne : ∃ k, s k ≠ ⊥) :
    0 < ∑ k, wt (s k) := by
  obtain ⟨k, hk⟩ := hne
  exact Finset.sum_pos' (fun i _ => wt_nonneg (s i)) ⟨k, Finset.mem_univ k, wt_pos (hs k) hk⟩

theorem sum_wt_nonneg {ι : Type*} [Fintype ι] (s : ι → EReal) : 0 ≤ ∑ k, wt (s k) :=
  Finset.sum_nonneg (fun k _ => wt_nonneg (s k))

/-- The coercion of a finite real sum is the sum of the coercions. -/
private theorem coe_sum {ι : Type*} (t : Finset ι) (f : ι → ℝ) :
    ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- The maximum of finitely many scores, none plus infinity and one of them real, is real. -/
private theorem fold_real {ι : Type*} [Fintype ι] (s : ι → EReal) (hs : ∀ k, s k ≠ ⊤)
    (hne : ∃ k, s k ≠ ⊥) : ∃ φ : ℝ, Finset.univ.fold max ⊥ s = (φ : EReal) := by
  obtain ⟨k, hk⟩ := hne
  have hlt : Finset.univ.fold max ⊥ s < ⊤ :=
    (Finset.fold_max_lt _).2 ⟨bot_lt_top, fun x _ => lt_top_iff_ne_top.2 (hs x)⟩
  have hle : s k ≤ Finset.univ.fold max ⊥ s :=
    (Finset.le_fold_max _).2 (Or.inr ⟨k, Finset.mem_univ k, le_rfl⟩)
  have hbot : Finset.univ.fold max ⊥ s ≠ ⊥ := fun h => hk (le_bot_iff.1 (h ▸ hle))
  exact ⟨_, (EReal.coe_toReal hlt.ne hbot).symm⟩

/-- Subtracting a real M from a score multiplies its weight by e^{-M}. -/
private theorem exp_sub_coe {s : EReal} (hs : s ≠ ⊤) (M : ℝ) :
    Ideal.exp (s - (M : EReal)) = ((wt s * Real.exp (-M) : ℝ) : EReal) := by
  induction s using EReal.rec with
  | bot => rw [EReal.bot_sub, Ideal.exp_bot, wt_bot, zero_mul, EReal.coe_zero]
  | coe σ => rw [← EReal.coe_sub, Ideal.exp_coe, wt_coe, ← Real.exp_add, sub_eq_add_neg]
  | top => exact absurd rfl hs

/-- The maximum of two reals, read in the extended reals, is a real. -/
private theorem max_coe_coe (x y : ℝ) : ∃ z : ℝ, max (x : EReal) (y : EReal) = (z : EReal) := by
  rcases le_total x y with h | h
  · exact ⟨y, max_eq_right (EReal.coe_le_coe_iff.2 h)⟩
  · exact ⟨x, max_eq_left (EReal.coe_le_coe_iff.2 h)⟩

/-- The running state (m, l, a) stands for the totals W (of weights) and A (of weighted values):
    before any key m = -inf and all is zero; afterwards m is real, l = e^{-m} W and a = e^{-m} A. -/
def Inv (m l a : EReal) (W A : ℝ) : Prop :=
  (m = ⊥ ∧ l = 0 ∧ a = 0 ∧ W = 0 ∧ A = 0) ∨
    ∃ μ : ℝ, m = (μ : EReal) ∧ l = ((Real.exp (-μ) * W : ℝ) : EReal) ∧ a = ((Real.exp (-μ) * A : ℝ) : EReal)

theorem inv_init : Inv ⊥ 0 0 0 0 :=
  Or.inl ⟨rfl, rfl, rfl, rfl, rfl⟩

/-- The tile's terms at a real new maximum: the normaliser's and the weighted sum's. -/
private theorem tile_sums {ι : Type*} [Fintype ι] (s : ι → EReal) (v : ι → ℝ) (hs : ∀ k, s k ≠ ⊤) (M : ℝ) :
    (∑ k, Ideal.exp (s k - (M : EReal)) = ((Real.exp (-M) * ∑ k, wt (s k) : ℝ) : EReal)) ∧
    (∑ k, Ideal.exp (s k - (M : EReal)) * ((v k : ℝ) : EReal)
      = ((Real.exp (-M) * ∑ k, wt (s k) * v k : ℝ) : EReal)) := by
  constructor
  · rw [Finset.mul_sum, coe_sum]
    refine Finset.sum_congr rfl fun k _ => ?_
    rw [exp_sub_coe (hs k), mul_comm]
  · rw [Finset.mul_sum, coe_sum]
    refine Finset.sum_congr rfl fun k _ => ?_
    rw [exp_sub_coe (hs k), ← EReal.coe_mul]
    congr 1
    ring

/-- One step over a tile of keys with scores `s` (none +inf, one real) and real values `v`. -/
theorem inv_step {ι : Type*} [Fintype ι] (s : ι → EReal) (v : ι → ℝ) (hs : ∀ k, s k ≠ ⊤) (hne : ∃ k, s k ≠ ⊥)
    {m l a : EReal} {W A : ℝ} (h : Inv m l a W A) :
    Inv (max m (Finset.univ.fold max ⊥ s))
      (Ideal.exp (m - max m (Finset.univ.fold max ⊥ s)) * l + ∑ k, Ideal.exp (s k - max m (Finset.univ.fold max ⊥ s)))
      (Ideal.exp (m - max m (Finset.univ.fold max ⊥ s)) * a
        + ∑ k, Ideal.exp (s k - max m (Finset.univ.fold max ⊥ s)) * ((v k : ℝ) : EReal))
      (W + ∑ k, wt (s k)) (A + ∑ k, wt (s k) * v k) := by
  obtain ⟨φ, hφ⟩ := fold_real s hs hne
  rw [hφ]
  rcases h with ⟨rfl, rfl, rfl, rfl, rfl⟩ | ⟨μ, rfl, rfl, rfl⟩
  · -- the first tile: the old maximum is minus infinity, the rescaling factor is zero
    rw [max_bot_left]
    obtain ⟨h1, h2⟩ := tile_sums s v hs φ
    refine Or.inr ⟨φ, rfl, ?_, ?_⟩
    · rw [h1, mul_zero, zero_add, zero_add]
    · rw [h2, mul_zero, zero_add, zero_add]
  · -- a later tile: both maxima are real, and e^{μ - μ'} e^{-μ} = e^{-μ'}
    obtain ⟨μ', hμ'⟩ := max_coe_coe μ φ
    rw [hμ']
    obtain ⟨h1, h2⟩ := tile_sums s v hs μ'
    have hcancel : Real.exp μ * Real.exp (-μ) = 1 := by
      rw [← Real.exp_add, add_neg_cancel, Real.exp_zero]
    refine Or.inr ⟨μ', rfl, ?_, ?_⟩
    · rw [h1, exp_sub_coe (EReal.coe_ne_top μ), wt_coe, ← EReal.coe_mul, ← EReal.coe_add]
      congr 1
      linear_combination (Real.exp (-μ') * W) * hcancel
    · rw [h2, exp_sub_coe (EReal.coe_ne_top μ), wt_coe, ← EReal.coe_mul, ← EReal.coe_add]
      congr 1
      linear_combination (Real.exp (-μ') * A) * hcancel

/-- The final normalisation: the weighted sum over the normaliser is A / W. -/
theorem inv_finish {m l a : EReal} {W A : ℝ} (h : Inv m l a W A) (hW : 0 < W) :
    Ideal.div a l = ((A / W : ℝ) : EReal) := by
  rcases h with ⟨_, _, _, rfl, _⟩ | ⟨μ, _, rfl, rfl⟩
  · exact absurd hW (lt_irrefl 0)
  · have hne : Real.exp (-μ) * W ≠ 0 := (mul_pos (Real.exp_pos _) hW).ne'
    rw [Ideal.div_coe hne, ← EReal.coe_mul]
    congr 1
    have hW' : W ≠ 0 := hW.ne'
    have he : Real.exp (-μ) ≠ 0 := (Real.exp_pos _).ne'
    field_simp

/-- The plain softmax average as a host program computes it: the maximum taken against -inf, the
    normaliser summed from zero, each probability a quotient, then the weighted sum of the values. -/
theorem softmax_row {κ : Type*} [Fintype κ] (s : κ → EReal) (v : κ → ℝ) (hs : ∀ k, s k ≠ ⊤) (hne : ∃ k, s k ≠ ⊥) :
    ∑ k, Ideal.div (Ideal.exp (s k - max ⊥ (Finset.univ.fold max ⊥ s)))
        (0 + ∑ j, Ideal.exp (s j - max ⊥ (Finset.univ.fold max ⊥ s))) * ((v k : ℝ) : EReal)
      = (((∑ k, wt (s k) * v k) / (∑ k, wt (s k)) : ℝ) : EReal) := by
  obtain ⟨φ, hφ⟩ := fold_real s hs hne
  rw [hφ, max_bot_left, zero_add, (tile_sums s v hs φ).1]
  have hS : 0 < ∑ k, wt (s k) := sum_wt_pos s hs hne
  have he : Real.exp (-φ) ≠ 0 := (Real.exp_pos _).ne'
  have hne' : Real.exp (-φ) * ∑ k, wt (s k) ≠ 0 := (mul_pos (Real.exp_pos _) hS).ne'
  rw [Finset.sum_div, coe_sum]
  refine Finset.sum_congr rfl fun k _ => ?_
  rw [Ideal.div_coe hne', exp_sub_coe (hs k), ← EReal.coe_mul, ← EReal.coe_mul]
  congr 1
  have hS' : (∑ k, wt (s k)) ≠ 0 := hS.ne'
  field_simp

end Cert.OnlineSoftmax

end
-- ==== Proof.Spec.lean ====
/-
  Causal single-head attention over one sequence, on the reals: the specification both programs meet.
  For a sequence x of 2048 rows of 1024 features and projection matrices wq, wk, wv (1024 by 64):
  the projections are matrix products; the score of query row t against key row k is the inner
  product of their projections over the 64 head coordinates, scaled by 1/8 = 1/sqrt 64; a key after
  the query is masked (score minus infinity, weight zero); the output row is the softmax-weighted
  average of the value rows.
-/
import proofs.«421553_j55147380081195_3_alg».proof.Proof.LibOnlineSoftmax

noncomputable section

open scoped BigOperators

namespace Cert.Spec

open Cert.OnlineSoftmax

variable (x : Fin 2048 → Fin 1024 → ℝ) (wq wk wv : Fin 1024 → Fin 64 → ℝ)

/-- A projection: row t of x times the matrix w. -/
def proj (w : Fin 1024 → Fin 64 → ℝ) (t : Fin 2048) (h : Fin 64) : ℝ := ∑ d, x t d * w d h

/-- The scaled score of query row t against key row k. -/
def score (t k : Fin 2048) : ℝ := (∑ h, proj x wq t h * proj x wk k h) * (1 / 8)

/-- The causally masked score: minus infinity for a key after the query. -/
def smask (t k : Fin 2048) : EReal := if k ≤ t then ((score x wq wk t k : ℝ) : EReal) else ⊥

/-- The attention output at query row t and head coordinate h. -/
def attn (t : Fin 2048) (h : Fin 64) : ℝ :=
  (∑ k, wt (smask x wq wk t k) * proj x wv k h) / (∑ k, wt (smask x wq wk t k))

end Cert.Spec

end
-- ==== Proof.Projections.lean ====
/-
  The three projections the body keeps in its scratch buffers, read at an index on the extended reals:
  entry (t, h) is the sum over the 1024 features d of x[t, d] times the weight entry [d, h] (for the
  query projection, the weight times 1/8, the attention scale folded into it); and, when the block and
  the weights are real numbers, the real projections of the specification.
-/
import proofs.«421553_j55147380081195_3_alg».proof.Proof.Gen.KernelIdeal.Skeleton
import proofs.«421553_j55147380081195_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Proj

open Idealize.ShloMosaic Idealize.ShloMosaic.ValueIdx Idealize.SL.Sem Cert.KernelIdeal Cert.KernelIdeal.Gen

/-- The scale literal is one eighth. -/
theorem eighth : Ideal.ofBits .f32 0x3E000000#32 = ((1 / 8 : ℝ) : EReal) := by
  simp [Ideal.ofBits, Ideal.ieee, -EReal.coe_mul]; norm_num

private theorem lhs_mm_0 (i : S2048x64.Idx) (q : dot_S2048x1024_S1024x64_S2048x64_1_0_0_1_n_n.contr.Idx) :
    (dot_S2048x1024_S1024x64_S2048x64_1_0_0_1_n_n.lhsIdx i q 0).val = (i 0).val := by
  unfold DotDims.lhsIdx
  rw [dif_neg (show ¬(0 : Fin S2048x1024.rank) ∈ dot_S2048x1024_S1024x64_S2048x64_1_0_0_1_n_n.lhsBatch by decide), dif_pos (show (0 : Fin S2048x1024.rank) ∈ dot_S2048x1024_S1024x64_S2048x64_1_0_0_1_n_n.lhsNonContracting by decide)]
  rfl
private theorem lhs_mm_1 (i : S2048x64.Idx) (q : dot_S2048x1024_S1024x64_S2048x64_1_0_0_1_n_n.contr.Idx) :
    (dot_S2048x1024_S1024x64_S2048x64_1_0_0_1_n_n.lhsIdx i q 1).val = (q ⟨0, by decide⟩).val :=
  dot_S2048x1024_S1024x64_S2048x64_1_0_0_1_n_n.lhsIdx_val_of_single rfl i q
private theorem rhs_mm_0 (i : S2048x64.Idx) (q : dot_S2048x1024_S1024x64_S2048x64_1_0_0_1_n_n.contr.Idx) :
    (dot_S2048x1024_S1024x64_S2048x64_1_0_0_1_n_n.rhsIdx i q 0).val = (q ⟨0, by decide⟩).val :=
  dot_S2048x1024_S1024x64_S2048x64_1_0_0_1_n_n.rhsIdx_val_of_single rfl i q
private theorem rhs_mm_1 (i : S2048x64.Idx) (q : dot_S2048x1024_S1024x64_S2048x64_1_0_0_1_n_n.contr.Idx) :
    (dot_S2048x1024_S1024x64_S2048x64_1_0_0_1_n_n.rhsIdx i q 1).val = (i 1).val := by
  unfold DotDims.rhsIdx
  rw [dif_neg (show ¬(1 : Fin S1024x64.rank) ∈ dot_S2048x1024_S1024x64_S2048x64_1_0_0_1_n_n.rhsBatch by decide), dif_pos (show (1 : Fin S1024x64.rank) ∈ dot_S2048x1024_S1024x64_S2048x64_1_0_0_1_n_n.rhsNonContracting by decide)]
  rfl

/-- The product into the zero accumulator, read at (t, h): the sum over the 1024 contracted coordinates. -/
private theorem mm_apply (a : FVec Ideal S2048x1024 .bf16) (b : FVec Ideal S1024x64 .bf16) (t : Fin 2048) (h : Fin 64) :
    matmul dot_S2048x1024_S1024x64_S2048x64_1_0_0_1_n_n none a b (constant (F := Ideal) S2048x64 .f32 0x00000000#32) (ix2 t h)
      = ∑ d : Fin 1024, a (ix2 t d) * b (ix2 d h) := by
  simp only [matmul]
  rw [Ideal.matmul_constant_zero_apply, ← Equiv.sum_comp (contrEquiv1 dot_S2048x1024_S1024x64_S2048x64_1_0_0_1_n_n 1024 rfl rfl).symm]
  refine Finset.sum_congr rfl fun k _ => ?_
  have hk := contrEquiv1_symm_val dot_S2048x1024_S1024x64_S2048x64_1_0_0_1_n_n 1024 rfl rfl k
  have el : dot_S2048x1024_S1024x64_S2048x64_1_0_0_1_n_n.lhsIdx (ix2 t h) ((contrEquiv1 dot_S2048x1024_S1024x64_S2048x64_1_0_0_1_n_n 1024 rfl rfl).symm k) = ix2 t k := funext fun a => Fin.ext (by
    match a with
    | ⟨0, _⟩ => exact lhs_mm_0 _ _
    | ⟨1, _⟩ => exact (lhs_mm_1 _ _).trans hk)
  have er : dot_S2048x1024_S1024x64_S2048x64_1_0_0_1_n_n.rhsIdx (ix2 t h) ((contrEquiv1 dot_S2048x1024_S1024x64_S2048x64_1_0_0_1_n_n 1024 rfl rfl).symm k) = ix2 k h := funext fun a => Fin.ext (by
    match a with
    | ⟨0, _⟩ => exact (rhs_mm_0 _ _).trans hk
    | ⟨1, _⟩ => exact rhs_mm_1 _ _)
  rw [el, er]

/-- The block with its leading unit axis dropped, read at (t, d). -/
private theorem pay2_apply (x0 : FVec Ideal S1x2048x1024 .f32) (t : Fin 2048) (d : Fin 1024) :
    k0_pay2 (F := Ideal) x0 (ix2 t d) = x0 (ix3 0 t d) := by
  unfold k0_pay2
  rw [truncf_apply]
  exact shapeCast_1ab_ab_apply x0 _ t d

theorem qS_apply (x0 : FVec Ideal S1x2048x1024 .f32) (x1 : FVec Ideal S1024x64 .f32) (t : Fin 2048) (h : Fin 64) :
    k0_pay3 (F := Ideal) x0 x1 (ix2 t h) = ∑ d : Fin 1024, x0 (ix3 0 t d) * (x1 (ix2 d h) * Ideal.ofBits .f32 0x3E000000#32) := by
  unfold k0_pay3
  rw [shapeCast_self, truncf_apply, mm_apply]
  refine Finset.sum_congr rfl fun d _ => ?_
  rw [pay2_apply, truncf_apply, mulf_apply, broadcast_apply]
  rfl

theorem kS_apply (x0 : FVec Ideal S1x2048x1024 .f32) (x2 : FVec Ideal S1024x64 .f32) (t : Fin 2048) (h : Fin 64) :
    k0_pay4 (F := Ideal) x0 x2 (ix2 t h) = ∑ d : Fin 1024, x0 (ix3 0 t d) * x2 (ix2 d h) := by
  unfold k0_pay4
  rw [shapeCast_self, truncf_apply, mm_apply]
  refine Finset.sum_congr rfl fun d _ => ?_
  rw [pay2_apply, truncf_apply]

theorem vS_apply (x0 : FVec Ideal S1x2048x1024 .f32) (x3 : FVec Ideal S1024x64 .f32) (t : Fin 2048) (h : Fin 64) :
    k0_pay5 (F := Ideal) x0 x3 (ix2 t h) = ∑ d : Fin 1024, x0 (ix3 0 t d) * x3 (ix2 d h) := by
  unfold k0_pay5
  rw [shapeCast_self, truncf_apply, mm_apply]
  refine Finset.sum_congr rfl fun d _ => ?_
  rw [pay2_apply, truncf_apply]

/-- The coercion of a finite real sum is the sum of the coercions. -/
private theorem coe_sum {ι : Type} (s : Finset ι) (f : ι → ℝ) :
    ((∑ i ∈ s, f i : ℝ) : EReal) = ∑ i ∈ s, ((f i : ℝ) : EReal) := by
  classical
  refine Finset.induction_on s (by simp) ?_
  intro a s ha ih
  rw [Finset.sum_insert ha, Finset.sum_insert ha, EReal.coe_add, ih]

variable (x : Fin 2048 → Fin 1024 → ℝ) (w : Fin 1024 → Fin 64 → ℝ)

theorem qS_real (x0 : FVec Ideal S1x2048x1024 .f32) (x1 : FVec Ideal S1024x64 .f32)
    (hx : ∀ t d, x0 (ix3 0 t d) = ((x t d : ℝ) : EReal)) (hw : ∀ d h, x1 (ix2 d h) = ((w d h : ℝ) : EReal))
    (t : Fin 2048) (h : Fin 64) :
    k0_pay3 (F := Ideal) x0 x1 (ix2 t h) = ((Cert.Spec.proj x w t h * (1 / 8) : ℝ) : EReal) := by
  rw [qS_apply, eighth]
  unfold Cert.Spec.proj
  rw [Finset.sum_mul, coe_sum]
  refine Finset.sum_congr rfl fun d _ => ?_
  rw [hx, hw, ← EReal.coe_mul, ← EReal.coe_mul, mul_assoc]

theorem kS_real (x0 : FVec Ideal S1x2048x1024 .f32) (x2 : FVec Ideal S1024x64 .f32)
    (hx : ∀ t d, x0 (ix3 0 t d) = ((x t d : ℝ) : EReal)) (hw : ∀ d h, x2 (ix2 d h) = ((w d h : ℝ) : EReal))
    (t : Fin 2048) (h : Fin 64) :
    k0_pay4 (F := Ideal) x0 x2 (ix2 t h) = ((Cert.Spec.proj x w t h : ℝ) : EReal) := by
  rw [kS_apply]
  unfold Cert.Spec.proj
  rw [coe_sum]
  refine Finset.sum_congr rfl fun d _ => ?_
  rw [hx, hw, ← EReal.coe_mul]

theorem vS_real (x0 : FVec Ideal S1x2048x1024 .f32) (x3 : FVec Ideal S1024x64 .f32)
    (hx : ∀ t d, x0 (ix3 0 t d) = ((x t d : ℝ) : EReal)) (hw : ∀ d h, x3 (ix2 d h) = ((w d h : ℝ) : EReal))
    (t : Fin 2048) (h : Fin 64) :
    k0_pay5 (F := Ideal) x0 x3 (ix2 t h) = ((Cert.Spec.proj x w t h : ℝ) : EReal) := by
  rw [vS_apply]
  unfold Cert.Spec.proj
  rw [coe_sum]
  refine Finset.sum_congr rfl fun d _ => ?_
  rw [hx, hw, ← EReal.coe_mul]

end Cert.KernelIdeal.Proj

end
-- ==== Proof.AttnTileRead.lean ====
/-
  The tile operations of the causal-attention body read at an index, on the extended reals: a score is a
  sum of 64 products; the mask keeps a score at or below the diagonal and puts minus infinity above it;
  a step's new maximum at a row is the old one against the row's maximum over the tile's 512 columns;
  its normaliser and weighted sum are the old ones rescaled plus the row's sums over the tile; the output
  is the quotient of weighted sum and normaliser.
-/
import proofs.«421553_j55147380081195_3_alg».proof.Proof.AttnTile
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Tile

open Idealize.ShloMosaic Idealize.ShloMosaic.ValueIdx Idealize.SL.Sem Cert.KernelIdeal Cert.KernelIdeal.Gen

/-! ## Words and constants -/

/-- The f32 pattern of minus infinity denotes the bottom element. -/
private theorem ofBits_neg_inf_f32 : Ideal.ofBits .f32 0xFF800000#32 = ⊥ := by
  simp [Ideal.ofBits, Ideal.ieee]

/-- The named constant that stands for minus infinity is the bottom element. -/
private theorem neg_big_eq : (Named.named κ "neg_big" (0xFF333332#32 : BitVec (FTy.bits .f32)) : Ideal .f32) = ⊥ := rfl

theorem init_m (r : Fin 512) : (init (F := Ideal)).m (ix2 r 0) = ⊥ := by
  show Ideal.ofBits .f32 0xFF800000#32 = ⊥
  exact ofBits_neg_inf_f32

theorem init_l (r : Fin 512) : (init (F := Ideal)).l (ix2 r 0) = 0 := by
  show Ideal.ofBits .f32 0x00000000#32 = 0
  exact Ideal.ofBits_zero_f32

theorem init_acc (r : Fin 512) (h : Fin 64) : (init (F := Ideal)).acc (ix2 r h) = 0 := by
  show Ideal.ofBits .f32 0x00000000#32 = 0
  exact Ideal.ofBits_zero_f32

/-! ## The keepdims column: a vector cast to one column, a column broadcast over a row -/

/-- An `[a]` vector cast to the column `[a, 1]` reads, at `(i, u)`, the operand at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two products, read at an index -/

/-- Scores: the left operand's row is the output row … -/
private theorem lhs_scores_0 (i : S512x512.Idx) (q : dot_S512x64_S512x64_S512x512_1_1_0_0_n_n.contr.Idx) :
    (dot_S512x64_S512x64_S512x512_1_1_0_0_n_n.lhsIdx i q 0).val = (i 0).val := by
  unfold DotDims.lhsIdx
  rw [dif_neg (show ¬(0 : Fin S512x64.rank) ∈ dot_S512x64_S512x64_S512x512_1_1_0_0_n_n.lhsBatch by decide),
    dif_pos (show (0 : Fin S512x64.rank) ∈ dot_S512x64_S512x64_S512x512_1_1_0_0_n_n.lhsNonContracting by decide)]
  rfl
/-- … its column the contraction coordinate; -/
private theorem lhs_scores_1 (i : S512x512.Idx) (q : dot_S512x64_S512x64_S512x512_1_1_0_0_n_n.contr.Idx) :
    (dot_S512x64_S512x64_S512x512_1_1_0_0_n_n.lhsIdx i q 1).val = (q ⟨0, by decide⟩).val :=
  dot_S512x64_S512x64_S512x512_1_1_0_0_n_n.lhsIdx_val_of_single rfl i q
/-- the right operand's row is the output column … -/
private theorem rhs_scores_0 (i : S512x512.Idx) (q : dot_S512x64_S512x64_S512x512_1_1_0_0_n_n.contr.Idx) :
    (dot_S512x64_S512x64_S512x512_1_1_0_0_n_n.rhsIdx i q 0).val = (i 1).val := by
  unfold DotDims.rhsIdx
  rw [dif_neg (show ¬(0 : Fin S512x64.rank) ∈ dot_S512x64_S512x64_S512x512_1_1_0_0_n_n.rhsBatch by decide),
    dif_pos (show (0 : Fin S512x64.rank) ∈ dot_S512x64_S512x64_S512x512_1_1_0_0_n_n.rhsNonContracting by decide)]
  rfl
/-- … and its column the contraction coordinate. -/
private theorem rhs_scores_1 (i : S512x512.Idx) (q : dot_S512x64_S512x64_S512x512_1_1_0_0_n_n.contr.Idx) :
    (dot_S512x64_S512x64_S512x512_1_1_0_0_n_n.rhsIdx i q 1).val = (q ⟨0, by decide⟩).val :=
  dot_S512x64_S512x64_S512x512_1_1_0_0_n_n.rhsIdx_val_of_single rfl i q

theorem scoresT_apply (q k : FVec Ideal S512x64 .bf16) (r c : Fin 512) :
    scoresT (F := Ideal) q k (ix2 r c) = ∑ h : Fin 64, q (ix2 r h) * k (ix2 c h) := by
  show FloatOps.matmul dot_S512x64_S512x64_S512x512_1_1_0_0_n_n none q k (constant S512x512 .f32 0x00000000#32) (ix2 r c) = _
  rw [Ideal.matmul_constant_zero_apply,
    ← Equiv.sum_comp (contrEquiv1 dot_S512x64_S512x64_S512x512_1_1_0_0_n_n 64 rfl rfl).symm]
  refine Finset.sum_congr rfl fun h _ => ?_
  have hk := contrEquiv1_symm_val dot_S512x64_S512x64_S512x512_1_1_0_0_n_n 64 rfl rfl h
  have el : dot_S512x64_S512x64_S512x512_1_1_0_0_n_n.lhsIdx (ix2 r c)
      ((contrEquiv1 dot_S512x64_S512x64_S512x512_1_1_0_0_n_n 64 rfl rfl).symm h) = ix2 r h := funext fun a => Fin.ext (by
    match a with
    | ⟨0, _⟩ => exact lhs_scores_0 _ _
    | ⟨1, _⟩ => exact (lhs_scores_1 _ _).trans hk)
  have er : dot_S512x64_S512x64_S512x512_1_1_0_0_n_n.rhsIdx (ix2 r c)
      ((contrEquiv1 dot_S512x64_S512x64_S512x512_1_1_0_0_n_n 64 rfl rfl).symm h) = ix2 c h := funext fun a => Fin.ext (by
    match a with
    | ⟨0, _⟩ => exact rhs_scores_0 _ _
    | ⟨1, _⟩ => exact (rhs_scores_1 _ _).trans hk)
  rw [el, er]

/-- Weighted sum: the left operand's row is the output row … -/
private theorem lhs_pv_0 (i : S512x64.Idx) (q : dot_S512x512_S512x64_S512x64_1_0_0_1_n_n.contr.Idx) :
    (dot_S512x512_S512x64_S512x64_1_0_0_1_n_n.lhsIdx i q 0).val = (i 0).val := by
  unfold DotDims.lhsIdx
  rw [dif_neg (show ¬(0 : Fin S512x512.rank) ∈ dot_S512x512_S512x64_S512x64_1_0_0_1_n_n.lhsBatch by decide),
    dif_pos (show (0 : Fin S512x512.rank) ∈ dot_S512x512_S512x64_S512x64_1_0_0_1_n_n.lhsNonContracting by decide)]
  rfl
/-- … its column the contraction coordinate; -/
private theorem lhs_pv_1 (i : S512x64.Idx) (q : dot_S512x512_S512x64_S512x64_1_0_0_1_n_n.contr.Idx) :
    (dot_S512x512_S512x64_S512x64_1_0_0_1_n_n.lhsIdx i q 1).val = (q ⟨0, by decide⟩).val :=
  dot_S512x512_S512x64_S512x64_1_0_0_1_n_n.lhsIdx_val_of_single rfl i q
/-- the right operand's row is the contraction coordinate … -/
private theorem rhs_pv_0 (i : S512x64.Idx) (q : dot_S512x512_S512x64_S512x64_1_0_0_1_n_n.contr.Idx) :
    (dot_S512x512_S512x64_S512x64_1_0_0_1_n_n.rhsIdx i q 0).val = (q ⟨0, by decide⟩).val :=
  dot_S512x512_S512x64_S512x64_1_0_0_1_n_n.rhsIdx_val_of_single rfl i q
/-- … and its column the output column. -/
private theorem rhs_pv_1 (i : S512x64.Idx) (q : dot_S512x512_S512x64_S512x64_1_0_0_1_n_n.contr.Idx) :
    (dot_S512x512_S512x64_S512x64_1_0_0_1_n_n.rhsIdx i q 1).val = (i 1).val := by
  unfold DotDims.rhsIdx
  rw [dif_neg (show ¬(1 : Fin S512x64.rank) ∈ dot_S512x512_S512x64_S512x64_1_0_0_1_n_n.rhsBatch by decide),
    dif_pos (show (1 : Fin S512x64.rank) ∈ dot_S512x512_S512x64_S512x64_1_0_0_1_n_n.rhsNonContracting by decide)]
  rfl

/-- The product of a probability tile with value rows, read at `(r, h)`. -/
private theorem pv_apply (p : FVec Ideal S512x512 .bf16) (v : FVec Ideal S512x64 .bf16) (r : Fin 512) (h : Fin 64) :
    FloatOps.matmul dot_S512x512_S512x64_S512x64_1_0_0_1_n_n none p v (constant S512x64 .f32 0x00000000#32) (ix2 r h)
      = ∑ c : Fin 512, p (ix2 r c) * v (ix2 c h) := by
  rw [Ideal.matmul_constant_zero_apply,
    ← Equiv.sum_comp (contrEquiv1 dot_S512x512_S512x64_S512x64_1_0_0_1_n_n 512 rfl rfl).symm]
  refine Finset.sum_congr rfl fun c _ => ?_
  have hk := contrEquiv1_symm_val dot_S512x512_S512x64_S512x64_1_0_0_1_n_n 512 rfl rfl c
  have el : dot_S512x512_S512x64_S512x64_1_0_0_1_n_n.lhsIdx (ix2 r h)
      ((contrEquiv1 dot_S512x512_S512x64_S512x64_1_0_0_1_n_n 512 rfl rfl).symm c) = ix2 r c := funext fun a => Fin.ext (by
    match a with
    | ⟨0, _⟩ => exact lhs_pv_0 _ _
    | ⟨1, _⟩ => exact (lhs_pv_1 _ _).trans hk)
  have er : dot_S512x512_S512x64_S512x64_1_0_0_1_n_n.rhsIdx (ix2 r h)
      ((contrEquiv1 dot_S512x512_S512x64_S512x64_1_0_0_1_n_n 512 rfl rfl).symm c) = ix2 c h := funext fun a => Fin.ext (by
    match a with
    | ⟨0, _⟩ => exact (rhs_pv_0 _ _).trans hk
    | ⟨1, _⟩ => exact rhs_pv_1 _ _)
  rw [el, er]

/-! ## The causal mask, read at an index -/

/-- A coordinate below 512, as a 32-bit word read signed, is itself. -/
private theorem toInt_ofNat_coord (a : Fin 512) : (BitVec.ofNat 32 a.val).toInt = (a.val : Int) := by
  have ha := a.isLt
  rw [BitVec.toInt_eq_msb_cond, BitVec.msb_eq_false_iff_two_mul_lt.mpr (by simp [BitVec.toNat_ofNat]; omega)]
  simp [BitVec.toNat_ofNat]; omega

/-- The signed comparison "row word ≥ column word" of two coordinates is the order of the coordinates. -/
private theorem select_sge_coord {α : Type} (r c : Fin 512) (A B : α) :
    Scalar.select (IntOp.cmpi .sge (BitVec.ofNat 32 r.val) (BitVec.ofNat 32 c.val)) A B = if c ≤ r then A else B := by
  unfold Scalar.select IntOp.cmpi
  by_cases hcr : c ≤ r
  · have hle : (BitVec.ofNat 32 c.val).sle (BitVec.ofNat 32 r.val) = true := by
      simp only [BitVec.sle, toInt_ofNat_coord, decide_eq_true_eq]
      exact_mod_cast hcr
    rw [if_pos hcr, hle]; rfl
  · have hle : (BitVec.ofNat 32 c.val).sle (BitVec.ofNat 32 r.val) = false := by
      simp only [BitVec.sle, toInt_ofNat_coord, decide_eq_false_iff_not]
      intro h; exact hcr (by exact_mod_cast h)
    rw [if_neg hcr, hle]; rfl

theorem maskT_apply (s : FVec Ideal S512x512 .f32) (r c : Fin 512) :
    maskT (F := Ideal) s (ix2 r c) = if c ≤ r then s (ix2 r c) else ⊥ := by
  show Scalar.select (IntOp.cmpi .sge (iota .tc S512x512 32 [0] iota_S512x512_d0_w32 (ix2 r c))
      (iota .tc S512x512 32 [1] iota_S512x512_d1_w32 (ix2 r c))) (s (ix2 r c))
      (Named.named κ "neg_big" (0xFF333332#32 : BitVec (FTy.bits .f32)) : Ideal .f32) = _
  rw [iota_single_apply, iota_single_apply, neg_big_eq]
  exact select_sge_coord r c _ _

/-! ## A row's maximum and a row's sum over the tile's 512 columns -/

/-- Over row `r`, the index with column `c` inserted is `(r, c)`. -/
private theorem lift_row (r c : Fin 512) : reduces_S512x512_S512.lift (ix1 r) c = ix2 r c := by
  funext a
  match a with
  | ⟨0, _⟩ => exact Fin.ext rfl
  | ⟨1, _⟩ => exact Fin.ext rfl

/-- The lane maximum over the columns, read at row `r`: the fold of `max` from the bottom element. -/
private theorem rowMax_apply (s : FVec Ideal S512x512 .f32) (r : Fin 512) :
    multiReduction .maximumf [1] S512 s 0xFF800000#32 reduces_S512x512_S512 (.inl rfl) rfl (ix1 r)
      = Finset.univ.fold max ⊥ fun c : Fin 512 => s (ix2 r c) := by
  refine (Ideal.multiReduction_maximumf_single s 0xFF800000#32 reduces_S512x512_S512 (.inl rfl) rfl (ix1 r)).trans ?_
  show Finset.univ.fold max (Ideal.ofBits .f32 0xFF800000#32) (fun c : Fin 512 => s (reduces_S512x512_S512.lift (ix1 r) c)) = _
  simp only [lift_row, ofBits_neg_inf_f32]

/-- The lane sum over the columns, read at row `r`. -/
private theorem rowSum_apply (p : FVec Ideal S512x512 .f32) (r : Fin 512) :
    multiReduction .add [1] S512 p 0x00000000#32 reduces_S512x512_S512 (.inl rfl) rfl (ix1 r)
      = ∑ c : Fin 512, p (ix2 r c) := by
  refine (Ideal.multiReduction_add_single p 0x00000000#32 reduces_S512x512_S512 (.inl rfl) rfl (ix1 r)).trans ?_
  show ∑ c : Fin 512, p (reduces_S512x512_S512.lift (ix1 r) c) = _
  simp only [lift_row]

/-! ## One step of the online softmax, read at an index -/

/-- The new running maximum at row `r`. -/
private theorem stepM_apply (s : FVec Ideal S512x512 .f32) (m : FVec Ideal S512x1 .f32) (r : Fin 512) :
    stepM (F := Ideal) s m (ix2 r 0) = max (m (ix2 r 0)) (Finset.univ.fold max ⊥ fun c : Fin 512 => s (ix2 r c)) := by
  show max (m (ix2 r 0)) (shapeCast S512x1 (multiReduction .maximumf [1] S512 s 0xFF800000#32 reduces_S512x512_S512 (.inl rfl) rfl)
    shapeCasts_S512_S512x1 (ix2 r 0)) = _
  rw [shapeCast_a_a1_apply, rowMax_apply]

/-- The rescaling factor at row `r`. -/
private theorem stepA_apply (s : FVec Ideal S512x512 .f32) (m : FVec Ideal S512x1 .f32) (r : Fin 512) :
    stepA (F := Ideal) s m (ix2 r 0) = Ideal.exp (m (ix2 r 0) - stepM (F := Ideal) s m (ix2 r 0)) := rfl

/-- The unnormalised probability at `(r, c)`. -/
private theorem stepP_apply (s : FVec Ideal S512x512 .f32) (m : FVec Ideal S512x1 .f32) (r c : Fin 512) :
    stepP (F := Ideal) s m (ix2 r c) = Ideal.exp (s (ix2 r c) - stepM (F := Ideal) s m (ix2 r 0)) := by
  show Ideal.exp (s (ix2 r c) - broadcastTo S512x512 (stepM (F := Ideal) s m) broadcasts_S512x1_S512x512 (ix2 r c)) = _
  rw [broadcastTo_a1_ab_apply]

theorem step_m (s : FVec Ideal S512x512 .f32) (v : FVec Ideal S512x64 .bf16) (σ : St Ideal) (r : Fin 512) :
    (step (F := Ideal) s v σ).m (ix2 r 0) = max (σ.m (ix2 r 0)) (Finset.univ.fold max ⊥ fun c : Fin 512 => s (ix2 r c)) :=
  stepM_apply s σ.m r

theorem step_l (s : FVec Ideal S512x512 .f32) (v : FVec Ideal S512x64 .bf16) (σ : St Ideal) (r : Fin 512) :
    (step (F := Ideal) s v σ).l (ix2 r 0)
      = Ideal.exp (σ.m (ix2 r 0) - (step (F := Ideal) s v σ).m (ix2 r 0)) * σ.l (ix2 r 0)
        + ∑ c : Fin 512, Ideal.exp (s (ix2 r c) - (step (F := Ideal) s v σ).m (ix2 r 0)) := by
  show stepA (F := Ideal) s σ.m (ix2 r 0) * σ.l (ix2 r 0)
      + shapeCast S512x1 (multiReduction .add [1] S512 (stepP (F := Ideal) s σ.m) 0x00000000#32 reduces_S512x512_S512 (.inl rfl) rfl)
          shapeCasts_S512_S512x1 (ix2 r 0)
    = Ideal.exp (σ.m (ix2 r 0) - stepM (F := Ideal) s σ.m (ix2 r 0)) * σ.l (ix2 r 0)
        + ∑ c : Fin 512, Ideal.exp (s (ix2 r c) - stepM (F := Ideal) s σ.m (ix2 r 0))
  rw [shapeCast_a_a1_apply, rowSum_apply, stepA_apply]
  simp only [stepP_apply]

theorem step_acc (s : FVec Ideal S512x512 .f32) (v : FVec Ideal S512x64 .bf16) (σ : St Ideal) (r : Fin 512) (h : Fin 64) :
    (step (F := Ideal) s v σ).acc (ix2 r h)
      = Ideal.exp (σ.m (ix2 r 0) - (step (F := Ideal) s v σ).m (ix2 r 0)) * σ.acc (ix2 r h)
        + ∑ c : Fin 512, Ideal.exp (s (ix2 r c) - (step (F := Ideal) s v σ).m (ix2 r 0)) * v (ix2 c h) := by
  show broadcastTo S512x64 (stepA (F := Ideal) s σ.m) broadcasts_S512x1_S512x64 (ix2 r h) * σ.acc (ix2 r h)
      + FloatOps.matmul dot_S512x512_S512x64_S512x64_1_0_0_1_n_n none (truncf .bf16 (stepP (F := Ideal) s σ.m) bitsLt_bf16_f32) v
          (constant S512x64 .f32 0x00000000#32) (ix2 r h)
    = Ideal.exp (σ.m (ix2 r 0) - stepM (F := Ideal) s σ.m (ix2 r 0)) * σ.acc (ix2 r h)
        + ∑ c : Fin 512, Ideal.exp (s (ix2 r c) - stepM (F := Ideal) s σ.m (ix2 r 0)) * v (ix2 c h)
  rw [broadcastTo_a1_ab_apply, pv_apply, stepA_apply]
  simp only [truncf_apply, stepP_apply]

/-! ## The output tile, read at an index -/

theorem out_apply (σ : St Ideal) (r : Fin 512) (h : Fin 64) :
    out (F := Ideal) σ (ix3 0 r h) = Ideal.div (σ.acc (ix2 r h)) (σ.l (ix2 r 0)) := by
  show shapeCast S1x512x64 (divf σ.acc (broadcastTo S512x64 σ.l broadcasts_S512x1_S512x64)) shapeCasts_S512x64_S1x512x64 (ix3 0 r h) = _
  rw [shapeCast_ab_1ab_apply]
  show Ideal.div (σ.acc (ix2 r h)) (broadcastTo S512x64 σ.l broadcasts_S512x1_S512x64 (ix2 r h)) = _
  rw [broadcastTo_a1_ab_apply]

end Cert.KernelIdeal.Tile

end
-- ==== Proof.TileRow.lean ====
/-
  One output row of a query tile is the specification's attention output. For query row t = 512 i + r
  the body visits key tiles 0 .. i; in tile j the score of column c is the masked score of key 512 j + c
  (below the diagonal tile every key is before the query, so nothing is masked; on the diagonal tile the
  mask is column after row). Each step keeps the online-softmax invariant with the tile's total weight
  and weighted value added; after the diagonal tile the totals are those of keys 0 .. 512 i + 511, and
  the keys after them weigh nothing, so the quotient is the specification's.
-/
import proofs.«421553_j55147380081195_3_alg».proof.Proof.AttnTileRead
import proofs.«421553_j55147380081195_3_alg».proof.Proof.Spec

set_option maxRecDepth 16384

noncomputable section

open scoped BigOperators

namespace Cert.KernelIdeal.TileRow

open Idealize.ShloMosaic Idealize.ShloMosaic.ValueIdx Cert.KernelIdeal Cert.KernelIdeal.Tile Cert.OnlineSoftmax Cert.Spec

/-- Row c of tile j of the sequence. -/
def rowOf (j : Fin 4) (c : Fin 512) : Fin 2048 := ⟨512 * j.val + c.val, by omega⟩

/-- The sequence's rows are the four tiles' rows. -/
def chunkEquiv : Fin 4 × Fin 512 ≃ Fin 2048 where
  toFun p := rowOf p.1 p.2
  invFun k := (⟨k.val / 512, by omega⟩, ⟨k.val % 512, by omega⟩)
  left_inv p := by
    obtain ⟨j, c⟩ := p
    apply Prod.ext <;> apply Fin.ext <;> simp only [rowOf] <;> omega
  right_inv k := by
    apply Fin.ext; simp only [rowOf]; omega

theorem sum_chunks (f : Fin 2048 → ℝ) : ∑ k, f k = ∑ j : Fin 4, ∑ c : Fin 512, f (rowOf j c) := by
  rw [← Equiv.sum_comp chunkEquiv f, Fintype.sum_prod_type]
  rfl

private theorem coe_sum {ι : Type*} (t : Finset ι) (f : ι → ℝ) :
    ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

variable (x : Fin 2048 → Fin 1024 → ℝ) (wq wk wv : Fin 1024 → Fin 64 → ℝ)

/-- Tile j's total weight for query row t, -/
def tw (t : Fin 2048) (j : Fin 4) : ℝ := ∑ c : Fin 512, wt (smask x wq wk t (rowOf j c))
/-- and its weighted value at head coordinate h. -/
def ta (t : Fin 2048) (h : Fin 64) (j : Fin 4) : ℝ := ∑ c : Fin 512, wt (smask x wq wk t (rowOf j c)) * proj x wv (rowOf j c) h

theorem attn_chunks (t : Fin 2048) (h : Fin 64) :
    attn x wq wk wv t h
      = (ta x wq wk wv t h 0 + ta x wq wk wv t h 1 + ta x wq wk wv t h 2 + ta x wq wk wv t h 3)
        / (tw x wq wk t 0 + tw x wq wk t 1 + tw x wq wk t 2 + tw x wq wk t 3) := by
  unfold attn
  rw [sum_chunks, sum_chunks, Fin.sum_univ_four, Fin.sum_univ_four]
  rfl

/-- A tile wholly after the query row weighs nothing. -/
theorem tw_zero (t : Fin 2048) (j : Fin 4) (hj : t.val < 512 * j.val) : tw x wq wk t j = 0 := by
  unfold tw
  refine Finset.sum_eq_zero fun c _ => ?_
  have : ¬ rowOf j c ≤ t := by
    rw [Fin.le_def]; simp only [rowOf]; omega
  rw [smask, if_neg this, wt_bot]

theorem ta_zero (t : Fin 2048) (h : Fin 64) (j : Fin 4) (hj : t.val < 512 * j.val) : ta x wq wk wv t h j = 0 := by
  unfold ta
  refine Finset.sum_eq_zero fun c _ => ?_
  have : ¬ rowOf j c ≤ t := by
    rw [Fin.le_def]; simp only [rowOf]; omega
  rw [smask, if_neg this, wt_bot, zero_mul]

theorem smask_ne_top (t k : Fin 2048) : smask x wq wk t k ≠ ⊤ := by
  unfold smask
  split
  · exact EReal.coe_ne_top _
  · exact bot_ne_top

theorem tw_pos (t : Fin 2048) (j : Fin 4) (c : Fin 512) (hc : rowOf j c ≤ t) : 0 < tw x wq wk t j := by
  unfold tw
  refine sum_wt_pos _ (fun c => smask_ne_top x wq wk t _) ⟨c, ?_⟩
  rw [smask, if_pos hc]
  exact EReal.coe_ne_bot _

/-! ## Scores of a tile -/

section Scores

variable (i j : Fin 4) (q kk : FVec Ideal S512x64 .bf16)
  (hq : ∀ r h, q (ix2 r h) = ((proj x wq (rowOf i r) h * (1 / 8) : ℝ) : EReal))
  (hk : ∀ c h, kk (ix2 c h) = ((proj x wk (rowOf j c) h : ℝ) : EReal))

include hq hk in
/-- The score tile's entry is the real scaled score. -/
theorem scores_real (r c : Fin 512) :
    scoresT (F := Ideal) q kk (ix2 r c) = ((score x wq wk (rowOf i r) (rowOf j c) : ℝ) : EReal) := by
  rw [scoresT_apply]
  simp only [hq, hk, ← EReal.coe_mul]
  rw [← coe_sum]
  congr 1
  unfold score
  rw [Finset.sum_mul]
  refine Finset.sum_congr rfl fun h _ => ?_
  ring

include hq hk in
/-- Below the diagonal tile nothing is masked. -/
theorem scores_below (hij : j.val < i.val) (r c : Fin 512) :
    scoresT (F := Ideal) q kk (ix2 r c) = smask x wq wk (rowOf i r) (rowOf j c) := by
  rw [scores_real x wq wk i j q kk hq hk r c]
  have : rowOf j c ≤ rowOf i r := by
    rw [Fin.le_def]; simp only [rowOf]; omega
  rw [smask, if_pos this]

include hq hk in
/-- On the diagonal tile the mask is the causal one. -/
theorem scores_diag (hij : j = i) (r c : Fin 512) :
    maskT (F := Ideal) (scoresT (F := Ideal) q kk) (ix2 r c) = smask x wq wk (rowOf i r) (rowOf j c) := by
  subst hij
  rw [maskT_apply, scores_real x wq wk j j q kk hq hk r c]
  unfold smask
  have : (rowOf j c ≤ rowOf j r) ↔ c ≤ r := by
    rw [Fin.le_def, Fin.le_def]; simp only [rowOf]; omega
  by_cases hcr : c ≤ r
  · rw [if_pos hcr, if_pos (this.2 hcr)]
  · rw [if_neg hcr, if_neg (fun h => hcr (this.1 h))]

end Scores

/-! ## One step at a row -/

/-- One step over key tile j, at row r and head coordinate h, for query row t. -/
theorem row_step (s : FVec Ideal S512x512 .f32) (v : FVec Ideal S512x64 .bf16) (σ : St Ideal) (r : Fin 512) (h : Fin 64)
    (t : Fin 2048) (j : Fin 4)
    (hs : ∀ c, s (ix2 r c) = smask x wq wk t (rowOf j c)) (c₀ : Fin 512) (hc₀ : rowOf j c₀ ≤ t)
    (hv : ∀ c, v (ix2 c h) = ((proj x wv (rowOf j c) h : ℝ) : EReal))
    {W A : ℝ} (hI : Inv (σ.m (ix2 r 0)) (σ.l (ix2 r 0)) (σ.acc (ix2 r h)) W A) :
    Inv ((step (F := Ideal) s v σ).m (ix2 r 0)) ((step (F := Ideal) s v σ).l (ix2 r 0)) ((step (F := Ideal) s v σ).acc (ix2 r h))
      (W + tw x wq wk t j) (A + ta x wq wk wv t h j) := by
  rw [step_l, step_acc, step_m]
  simp only [hs, hv]
  exact inv_step (fun c => smask x wq wk t (rowOf j c)) (fun c => proj x wv (rowOf j c) h)
    (fun c => smask_ne_top x wq wk t _) ⟨c₀, by rw [smask, if_pos hc₀]; exact EReal.coe_ne_bot _⟩ hI

theorem init_inv (r : Fin 512) (h : Fin 64) :
    Inv ((init (F := Ideal)).m (ix2 r 0)) ((init (F := Ideal)).l (ix2 r 0)) ((init (F := Ideal)).acc (ix2 r h)) 0 0 := by
  rw [init_m, init_l, init_acc]
  exact inv_init

end Cert.KernelIdeal.TileRow

end
-- ==== Proof.TileRows.lean ====
/-
  The four output tiles at a row: tile i steps over key tiles 0 .. i (the last masked) from the empty
  state and divides; by the invariant of the online softmax the quotient is the total weighted value over
  the total weight of keys 0 .. 512 i + 511, which is the specification's output because later keys weigh
  nothing.
-/
import proofs.«421553_j55147380081195_3_alg».proof.Proof.TileRow

set_option maxRecDepth 16384

noncomputable section

open scoped BigOperators

namespace Cert.KernelIdeal.TileRow

open Idealize.ShloMosaic Idealize.ShloMosaic.ValueIdx Cert.KernelIdeal Cert.KernelIdeal.Tile Cert.OnlineSoftmax Cert.Spec

variable (x : Fin 2048 → Fin 1024 → ℝ) (wq wk wv : Fin 1024 → Fin 64 → ℝ)

theorem rowOf_zero_le (i j : Fin 4) (hji : j.val ≤ i.val) (r : Fin 512) : rowOf j 0 ≤ rowOf i r := by
  rw [Fin.le_def]; simp only [rowOf]; have : ((0 : Fin 512) : Nat) = 0 := rfl; omega

theorem rowOf_lt (i j : Fin 4) (hij : i.val < j.val) (r : Fin 512) : (rowOf i r).val < 512 * j.val := by
  simp only [rowOf]; have := r.isLt; omega

theorem tw_nonneg (t : Fin 2048) (j : Fin 4) : 0 ≤ tw x wq wk t j := by
  unfold tw; exact sum_wt_nonneg _

/-- Output tile 0 at row r and head coordinate h. -/
theorem tile0_row (q k0 v0 : FVec Ideal S512x64 .bf16)
    (hq : ∀ r h, q (ix2 r h) = ((proj x wq (rowOf 0 r) h * (1 / 8) : ℝ) : EReal))
    (hk0 : ∀ c h, k0 (ix2 c h) = ((proj x wk (rowOf 0 c) h : ℝ) : EReal))
    (hv0 : ∀ c h, v0 (ix2 c h) = ((proj x wv (rowOf 0 c) h : ℝ) : EReal))
    (r : Fin 512) (h : Fin 64) :
    tile0 (F := Ideal) q k0 v0 (ix3 (0 : Fin 1) r h) = ((attn x wq wk wv (rowOf 0 r) h : ℝ) : EReal) := by
  unfold tile0
  rw [out_apply]
  have I0 := init_inv r h
  have I1 := row_step x wq wk wv (maskT (F := Ideal) (scoresT (F := Ideal) q k0)) v0 (init (F := Ideal)) r h (rowOf 0 r) 0
    (fun c => scores_diag x wq wk 0 0 q k0 hq hk0 rfl r c) 0 (rowOf_zero_le 0 0 (by decide) r) (fun c => hv0 c h) I0
  have hW : 0 < 0 + tw x wq wk (rowOf 0 r) 0 := by
    have := tw_pos x wq wk (rowOf 0 r) 0 0 (rowOf_zero_le 0 0 (le_refl _) r)

    linarith
  rw [inv_finish I1 hW, attn_chunks]
  rw [tw_zero x wq wk (rowOf 0 r) 1 (rowOf_lt 0 1 (by decide) r),
    ta_zero x wq wk wv (rowOf 0 r) h 1 (rowOf_lt 0 1 (by decide) r),
    tw_zero x wq wk (rowOf 0 r) 2 (rowOf_lt 0 2 (by decide) r),
    ta_zero x wq wk wv (rowOf 0 r) h 2 (rowOf_lt 0 2 (by decide) r),
    tw_zero x wq wk (rowOf 0 r) 3 (rowOf_lt 0 3 (by decide) r),
    ta_zero x wq wk wv (rowOf 0 r) h 3 (rowOf_lt 0 3 (by decide) r)]
  simp only [zero_add, add_zero]

/-- Output tile 1 at row r and head coordinate h. -/
theorem tile1_row (q k0 v0 k1 v1 : FVec Ideal S512x64 .bf16)
    (hq : ∀ r h, q (ix2 r h) = ((proj x wq (rowOf 1 r) h * (1 / 8) : ℝ) : EReal))
    (hk0 : ∀ c h, k0 (ix2 c h) = ((proj x wk (rowOf 0 c) h : ℝ) : EReal))
    (hv0 : ∀ c h, v0 (ix2 c h) = ((proj x wv (rowOf 0 c) h : ℝ) : EReal))
    (hk1 : ∀ c h, k1 (ix2 c h) = ((proj x wk (rowOf 1 c) h : ℝ) : EReal))
    (hv1 : ∀ c h, v1 (ix2 c h) = ((proj x wv (rowOf 1 c) h : ℝ) : EReal))
    (r : Fin 512) (h : Fin 64) :
    tile1 (F := Ideal) q k0 v0 k1 v1 (ix3 (0 : Fin 1) r h) = ((attn x wq wk wv (rowOf 1 r) h : ℝ) : EReal) := by
  unfold tile1
  rw [out_apply]
  have I0 := init_inv r h
  have I1 := row_step x wq wk wv (scoresT (F := Ideal) q k0) v0 (init (F := Ideal)) r h (rowOf 1 r) 0
    (fun c => scores_below x wq wk 1 0 q k0 hq hk0 (by decide) r c) 0 (rowOf_zero_le 1 0 (by decide) r) (fun c => hv0 c h) I0
  have I2 := row_step x wq wk wv (maskT (F := Ideal) (scoresT (F := Ideal) q k1)) v1 (step (F := Ideal) (scoresT (F := Ideal) q k0) v0 (init (F := Ideal))) r h (rowOf 1 r) 1
    (fun c => scores_diag x wq wk 1 1 q k1 hq hk1 rfl r c) 0 (rowOf_zero_le 1 1 (by decide) r) (fun c => hv1 c h) I1
  have hW : 0 < 0 + tw x wq wk (rowOf 1 r) 0 + tw x wq wk (rowOf 1 r) 1 := by
    have := tw_pos x wq wk (rowOf 1 r) 1 0 (rowOf_zero_le 1 1 (le_refl _) r)
    have := tw_nonneg x wq wk (rowOf 1 r) 0
    linarith
  rw [inv_finish I2 hW, attn_chunks]
  rw [tw_zero x wq wk (rowOf 1 r) 2 (rowOf_lt 1 2 (by decide) r),
    ta_zero x wq wk wv (rowOf 1 r) h 2 (rowOf_lt 1 2 (by decide) r),
    tw_zero x wq wk (rowOf 1 r) 3 (rowOf_lt 1 3 (by decide) r),
    ta_zero x wq wk wv (rowOf 1 r) h 3 (rowOf_lt 1 3 (by decide) r)]
  simp only [zero_add, add_zero]

/-- Output tile 2 at row r and head coordinate h. -/
theorem tile2_row (q k0 v0 k1 v1 k2 v2 : FVec Ideal S512x64 .bf16)
    (hq : ∀ r h, q (ix2 r h) = ((proj x wq (rowOf 2 r) h * (1 / 8) : ℝ) : EReal))
    (hk0 : ∀ c h, k0 (ix2 c h) = ((proj x wk (rowOf 0 c) h : ℝ) : EReal))
    (hv0 : ∀ c h, v0 (ix2 c h) = ((proj x wv (rowOf 0 c) h : ℝ) : EReal))
    (hk1 : ∀ c h, k1 (ix2 c h) = ((proj x wk (rowOf 1 c) h : ℝ) : EReal))
    (hv1 : ∀ c h, v1 (ix2 c h) = ((proj x wv (rowOf 1 c) h : ℝ) : EReal))
    (hk2 : ∀ c h, k2 (ix2 c h) = ((proj x wk (rowOf 2 c) h : ℝ) : EReal))
    (hv2 : ∀ c h, v2 (ix2 c h) = ((proj x wv (rowOf 2 c) h : ℝ) : EReal))
    (r : Fin 512) (h : Fin 64) :
    tile2 (F := Ideal) q k0 v0 k1 v1 k2 v2 (ix3 (0 : Fin 1) r h) = ((attn x wq wk wv (rowOf 2 r) h : ℝ) : EReal) := by
  unfold tile2
  rw [out_apply]
  have I0 := init_inv r h
  have I1 := row_step x wq wk wv (scoresT (F := Ideal) q k0) v0 (init (F := Ideal)) r h (rowOf 2 r) 0
    (fun c => scores_below x wq wk 2 0 q k0 hq hk0 (by decide) r c) 0 (rowOf_zero_le 2 0 (by decide) r) (fun c => hv0 c h) I0
  have I2 := row_step x wq wk wv (scoresT (F := Ideal) q k1) v1 (step (F := Ideal) (scoresT (F := Ideal) q k0) v0 (init (F := Ideal))) r h (rowOf 2 r) 1
    (fun c => scores_below x wq wk 2 1 q k1 hq hk1 (by decide) r c) 0 (rowOf_zero_le 2 1 (by decide) r) (fun c => hv1 c h) I1
  have I3 := row_step x wq wk wv (maskT (F := Ideal) (scoresT (F := Ideal) q k2)) v2 (step (F := Ideal) (scoresT (F := Ideal) q k1) v1 (step (F := Ideal) (scoresT (F := Ideal) q k0) v0 (init (F := Ideal)))) r h (rowOf 2 r) 2
    (fun c => scores_diag x wq wk 2 2 q k2 hq hk2 rfl r c) 0 (rowOf_zero_le 2 2 (by decide) r) (fun c => hv2 c h) I2
  have hW : 0 < 0 + tw x wq wk (rowOf 2 r) 0 + tw x wq wk (rowOf 2 r) 1 + tw x wq wk (rowOf 2 r) 2 := by
    have := tw_pos x wq wk (rowOf 2 r) 2 0 (rowOf_zero_le 2 2 (le_refl _) r)
    have := tw_nonneg x wq wk (rowOf 2 r) 0
    have := tw_nonneg x wq wk (rowOf 2 r) 1
    linarith
  rw [inv_finish I3 hW, attn_chunks]
  rw [tw_zero x wq wk (rowOf 2 r) 3 (rowOf_lt 2 3 (by decide) r),
    ta_zero x wq wk wv (rowOf 2 r) h 3 (rowOf_lt 2 3 (by decide) r)]
  simp only [zero_add, add_zero]

/-- Output tile 3 at row r and head coordinate h. -/
theorem tile3_row (q k0 v0 k1 v1 k2 v2 k3 v3 : FVec Ideal S512x64 .bf16)
    (hq : ∀ r h, q (ix2 r h) = ((proj x wq (rowOf 3 r) h * (1 / 8) : ℝ) : EReal))
    (hk0 : ∀ c h, k0 (ix2 c h) = ((proj x wk (rowOf 0 c) h : ℝ) : EReal))
    (hv0 : ∀ c h, v0 (ix2 c h) = ((proj x wv (rowOf 0 c) h : ℝ) : EReal))
    (hk1 : ∀ c h, k1 (ix2 c h) = ((proj x wk (rowOf 1 c) h : ℝ) : EReal))
    (hv1 : ∀ c h, v1 (ix2 c h) = ((proj x wv (rowOf 1 c) h : ℝ) : EReal))
    (hk2 : ∀ c h, k2 (ix2 c h) = ((proj x wk (rowOf 2 c) h : ℝ) : EReal))
    (hv2 : ∀ c h, v2 (ix2 c h) = ((proj x wv (rowOf 2 c) h : ℝ) : EReal))
    (hk3 : ∀ c h, k3 (ix2 c h) = ((proj x wk (rowOf 3 c) h : ℝ) : EReal))
    (hv3 : ∀ c h, v3 (ix2 c h) = ((proj x wv (rowOf 3 c) h : ℝ) : EReal))
    (r : Fin 512) (h : Fin 64) :
    tile3 (F := Ideal) q k0 v0 k1 v1 k2 v2 k3 v3 (ix3 (0 : Fin 1) r h) = ((attn x wq wk wv (rowOf 3 r) h : ℝ) : EReal) := by
  unfold tile3
  rw [out_apply]
  have I0 := init_inv r h
  have I1 := row_step x wq wk wv (scoresT (F := Ideal) q k0) v0 (init (F := Ideal)) r h (rowOf 3 r) 0
    (fun c => scores_below x wq wk 3 0 q k0 hq hk0 (by decide) r c) 0 (rowOf_zero_le 3 0 (by decide) r) (fun c => hv0 c h) I0
  have I2 := row_step x wq wk wv (scoresT (F := Ideal) q k1) v1 (step (F := Ideal) (scoresT (F := Ideal) q k0) v0 (init (F := Ideal))) r h (rowOf 3 r) 1
    (fun c => scores_below x wq wk 3 1 q k1 hq hk1 (by decide) r c) 0 (rowOf_zero_le 3 1 (by decide) r) (fun c => hv1 c h) I1
  have I3 := row_step x wq wk wv (scoresT (F := Ideal) q k2) v2 (step (F := Ideal) (scoresT (F := Ideal) q k1) v1 (step (F := Ideal) (scoresT (F := Ideal) q k0) v0 (init (F := Ideal)))) r h (rowOf 3 r) 2
    (fun c => scores_below x wq wk 3 2 q k2 hq hk2 (by decide) r c) 0 (rowOf_zero_le 3 2 (by decide) r) (fun c => hv2 c h) I2
  have I4 := row_step x wq wk wv (maskT (F := Ideal) (scoresT (F := Ideal) q k3)) v3 (step (F := Ideal) (scoresT (F := Ideal) q k2) v2 (step (F := Ideal) (scoresT (F := Ideal) q k1) v1 (step (F := Ideal) (scoresT (F := Ideal) q k0) v0 (init (F := Ideal))))) r h (rowOf 3 r) 3
    (fun c => scores_diag x wq wk 3 3 q k3 hq hk3 rfl r c) 0 (rowOf_zero_le 3 3 (by decide) r) (fun c => hv3 c h) I3
  have hW : 0 < 0 + tw x wq wk (rowOf 3 r) 0 + tw x wq wk (rowOf 3 r) 1 + tw x wq wk (rowOf 3 r) 2 + tw x wq wk (rowOf 3 r) 3 := by
    have := tw_pos x wq wk (rowOf 3 r) 3 0 (rowOf_zero_le 3 3 (le_refl _) r)
    have := tw_nonneg x wq wk (rowOf 3 r) 0
    have := tw_nonneg x wq wk (rowOf 3 r) 1
    have := tw_nonneg x wq wk (rowOf 3 r) 2
    linarith
  rw [inv_finish I4 hW, attn_chunks]
  simp only [zero_add, add_zero]

end Cert.KernelIdeal.TileRow

end
-- ==== Proof.KernelBlock.lean ====
/-
  The four output tiles of one grid point, read at an index: with the sequence block and the three
  weight matrices real, entry (0, r, h) of output tile i is the specification's attention output at
  query row 512 i + r.
-/
import proofs.«421553_j55147380081195_3_alg».proof.Proof.KernelPieces
import proofs.«421553_j55147380081195_3_alg».proof.Proof.Projections
import proofs.«421553_j55147380081195_3_alg».proof.Proof.TileRows

set_option maxRecDepth 16384

noncomputable section

open scoped BigOperators

namespace Cert.KernelIdeal.Block

open Idealize.ShloMosaic Idealize.ShloMosaic.ValueIdx Cert.KernelIdeal Cert.KernelIdeal.Gen Cert.KernelIdeal.Tile
open Cert.KernelIdeal.Pieces Cert.KernelIdeal.Proj Cert.KernelIdeal.TileRow Cert.OnlineSoftmax Cert.Spec

variable (x : Fin 2048 → Fin 1024 → ℝ) (wq wk wv : Fin 1024 → Fin 64 → ℝ)
variable (x0 : FVec Ideal S1x2048x1024 .f32) (x1 x2 x3 : FVec Ideal S1024x64 .f32)
variable (hx : ∀ t d, x0 (ix3 0 t d) = ((x t d : ℝ) : EReal))
variable (h1 : ∀ d h, x1 (ix2 d h) = ((wq d h : ℝ) : EReal))
variable (h2 : ∀ d h, x2 (ix2 d h) = ((wk d h : ℝ) : EReal))
variable (h3 : ∀ d h, x3 (ix2 d h) = ((wv d h : ℝ) : EReal))

theorem row_eq (o : Nat) (j : Fin 4) (ho : o = 512 * j.val) (r : Fin 512) (hlt : o + r.val < 2048) :
    (⟨o + r.val, hlt⟩ : Fin 2048) = rowOf j r := by
  apply Fin.ext; simp only [rowOf]; omega

include hx h1 in
theorem q_rows (o : Nat) (inb) (j : Fin 4) (ho : o = 512 * j.val) (r : Fin 512) (h : Fin 64) :
    rowsAt (F := Ideal) o inb (k0_pay3 (F := Ideal) x0 x1) (ix2 r h) = ((proj x wq (rowOf j r) h * (1 / 8) : ℝ) : EReal) := by
  have hlt : o + r.val < 2048 := by have := j.isLt; have := r.isLt; omega
  rw [rowsAt_apply o inb _ r h hlt, qS_real x wq x0 x1 hx h1, row_eq o j ho r hlt]

include hx h2 in
theorem k_rows (o : Nat) (inb) (j : Fin 4) (ho : o = 512 * j.val) (r : Fin 512) (h : Fin 64) :
    rowsAt (F := Ideal) o inb (k0_pay4 (F := Ideal) x0 x2) (ix2 r h) = ((proj x wk (rowOf j r) h : ℝ) : EReal) := by
  have hlt : o + r.val < 2048 := by have := j.isLt; have := r.isLt; omega
  rw [rowsAt_apply o inb _ r h hlt, kS_real x wk x0 x2 hx h2, row_eq o j ho r hlt]

include hx h3 in
theorem v_rows (o : Nat) (inb) (j : Fin 4) (ho : o = 512 * j.val) (r : Fin 512) (h : Fin 64) :
    rowsAt (F := Ideal) o inb (k0_pay5 (F := Ideal) x0 x3) (ix2 r h) = ((proj x wv (rowOf j r) h : ℝ) : EReal) := by
  have hlt : o + r.val < 2048 := by have := j.isLt; have := r.isLt; omega
  rw [rowsAt_apply o inb _ r h hlt, vS_real x wv x0 x3 hx h3, row_eq o j ho r hlt]

include hx h1 h2 h3 in
/-- Output tile 0 of the block is the specification at rows [0, 512). -/
theorem blk0_apply (r : Fin 512) (h : Fin 64) :
    blk0 (F := Ideal) x0 x1 x2 x3 (ix3 (0 : Fin 1) r h) = ((attn x wq wk wv (rowOf 0 r) h : ℝ) : EReal) := by
  unfold blk0
  exact tile0_row x wq wk wv _ _ _
    (q_rows x wq x0 x1 hx h1 0 _ 0 (by decide))
    (k_rows x wk x0 x2 hx h2 0 _ 0 (by decide))
    (v_rows x wv x0 x3 hx h3 0 _ 0 (by decide)) r h

include hx h1 h2 h3 in
/-- Output tile 1 of the block is the specification at rows [512, 1024). -/
theorem blk1_apply (r : Fin 512) (h : Fin 64) :
    blk1 (F := Ideal) x0 x1 x2 x3 (ix3 (0 : Fin 1) r h) = ((attn x wq wk wv (rowOf 1 r) h : ℝ) : EReal) := by
  unfold blk1
  exact tile1_row x wq wk wv _ _ _ _ _
    (q_rows x wq x0 x1 hx h1 512 _ 1 (by decide))
    (k_rows x wk x0 x2 hx h2 0 _ 0 (by decide))
    (v_rows x wv x0 x3 hx h3 0 _ 0 (by decide))
    (k_rows x wk x0 x2 hx h2 512 _ 1 (by decide))
    (v_rows x wv x0 x3 hx h3 512 _ 1 (by decide)) r h

include hx h1 h2 h3 in
/-- Output tile 2 of the block is the specification at rows [1024, 1536). -/
theorem blk2_apply (r : Fin 512) (h : Fin 64) :
    blk2 (F := Ideal) x0 x1 x2 x3 (ix3 (0 : Fin 1) r h) = ((attn x wq wk wv (rowOf 2 r) h : ℝ) : EReal) := by
  unfold blk2
  exact tile2_row x wq wk wv _ _ _ _ _ _ _
    (q_rows x wq x0 x1 hx h1 1024 _ 2 (by decide))
    (k_rows x wk x0 x2 hx h2 0 _ 0 (by decide))
    (v_rows x wv x0 x3 hx h3 0 _ 0 (by decide))
    (k_rows x wk x0 x2 hx h2 512 _ 1 (by decide))
    (v_rows x wv x0 x3 hx h3 512 _ 1 (by decide))
    (k_rows x wk x0 x2 hx h2 1024 _ 2 (by decide))
    (v_rows x wv x0 x3 hx h3 1024 _ 2 (by decide)) r h

include hx h1 h2 h3 in
/-- Output tile 3 of the block is the specification at rows [1536, 2048). -/
theorem blk3_apply (r : Fin 512) (h : Fin 64) :
    blk3 (F := Ideal) x0 x1 x2 x3 (ix3 (0 : Fin 1) r h) = ((attn x wq wk wv (rowOf 3 r) h : ℝ) : EReal) := by
  unfold blk3
  exact tile3_row x wq wk wv _ _ _ _ _ _ _ _ _
    (q_rows x wq x0 x1 hx h1 1536 _ 3 (by decide))
    (k_rows x wk x0 x2 hx h2 0 _ 0 (by decide))
    (v_rows x wv x0 x3 hx h3 0 _ 0 (by decide))
    (k_rows x wk x0 x2 hx h2 512 _ 1 (by decide))
    (v_rows x wv x0 x3 hx h3 512 _ 1 (by decide))
    (k_rows x wk x0 x2 hx h2 1024 _ 2 (by decide))
    (v_rows x wv x0 x3 hx h3 1024 _ 2 (by decide))
    (k_rows x wk x0 x2 hx h2 1536 _ 3 (by decide))
    (v_rows x wv x0 x3 hx h3 1536 _ 3 (by decide)) r h

end Cert.KernelIdeal.Block

end
-- ==== Proof.KernelArray.lean ====
/-
  The kernel's result array after the run. Grid point b stages batch b's sequence (the whole weight
  matrices every time) and writes back batch b's output block; with real inputs every entry (b, t, h) of
  the final array is the specification's attention output of batch b's sequence at row t.
-/
import proofs.«421553_j55147380081195_3_alg».proof.Proof.Gen.KernelIdeal.Value
import proofs.«421553_j55147380081195_3_alg».proof.Proof.KernelBlock
import Idealize.ShloMosaic.Lib.Pipeline.Value

set_option maxRecDepth 16384

noncomputable section

open scoped BigOperators

namespace Cert.KernelIdeal.Arr

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Value Cert.KernelIdeal.Pieces Cert.KernelIdeal.Block
open Cert.KernelIdeal.TileRow Cert.Spec

variable (m : (ℓ : Loc nD τ sig) → Buf (Elt Ideal) ℓ) (ρ : Dev nD → PrngReg)

/-- The arguments as arrays of extended reals, -/
abbrev arrX (c : Dev nD) : S8x2048x1024.Idx → EReal := m ((c : Thread nD τ).loc main_arg0)
abbrev arrQ (c : Dev nD) : S1024x64.Idx → EReal := m ((c : Thread nD τ).loc main_arg1)
abbrev arrK (c : Dev nD) : S1024x64.Idx → EReal := m ((c : Thread nD τ).loc main_arg2)
abbrev arrV (c : Dev nD) : S1024x64.Idx → EReal := m ((c : Thread nD τ).loc main_arg3)

/-- and their real parts. -/
def xr (c : Dev nD) (b : Fin 8) (t : Fin 2048) (d : Fin 1024) : ℝ := (arrX m c (ix3 b t d)).toReal
def wqr (c : Dev nD) (d : Fin 1024) (h : Fin 64) : ℝ := (arrQ m c (ix2 d h)).toReal
def wkr (c : Dev nD) (d : Fin 1024) (h : Fin 64) : ℝ := (arrK m c (ix2 d h)).toReal
def wvr (c : Dev nD) (d : Fin 1024) (h : Fin 64) : ℝ := (arrV m c (ix2 d h)).toReal

/-- The result array: attention of each batch's sequence. -/
def G (c : Dev nD) : S8x2048x64.Idx → EReal := fun i =>
  ((attn (xr m c ⟨(i 0).val, (i 0).isLt⟩) (wqr m c) (wkr m c) (wvr m c) ⟨(i 1).val, (i 1).isLt⟩ ⟨(i 2).val, (i 2).isLt⟩ : ℝ) : EReal)

theorem G_apply (c : Dev nD) (i : S8x2048x64.Idx) (b : Fin 8) (t : Fin 2048) (h : Fin 64)
    (e0 : (i 0).val = b.val) (e1 : (i 1).val = t.val) (e2 : (i 2).val = h.val) :
    G m c i = ((attn (xr m c b) (wqr m c) (wkr m c) (wvr m c) t h : ℝ) : EReal) := by
  unfold G
  have hb : (⟨(i 0).val, (i 0).isLt⟩ : Fin 8) = b := Fin.ext e0
  have ht : (⟨(i 1).val, (i 1).isLt⟩ : Fin 2048) = t := Fin.ext e1
  have hh : (⟨(i 2).val, (i 2).isLt⟩ : Fin 64) = h := Fin.ext e2
  rw [hb, ht, hh]

/-- The printed index maps over the eight grid points: point b stages batch b's sequence and writes batch b's
    block; the weights' blocks are the whole matrices. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

theorem lt8 (t : Fin cfg0.N) : t.val < 8 := by
  exact lt_of_lt_of_eq t.isLt N_0

/-- The sequence block at point t is batch t of the first argument. -/
theorem xblk_apply (c : Dev nD) (t : Fin cfg0.N) (t' : Fin 2048) (d : Fin 1024) :
    (iblk m c 0 t : FVec Ideal S1x2048x1024 .f32) (ix3 (0 : Fin 1) t' d) = arrX m c (ix3 ⟨t.val, lt8 t⟩ t' d) := by
  obtain ⟨e0, e1, e2, -⟩ := idx_facts t
  unfold iblk
  rw [View.read_apply]
  show V m c main_arg0 _ = m (c.tc.loc main_arg0) _
  unfold V
  congr 1
  funext a
  apply Fin.ext
  match a with
  | ⟨0, _⟩ => show win0_0.index t 0 * 1 + 1 * 0 = t.val; rw [e0]; omega
  | ⟨1, _⟩ => show win0_0.index t 1 * 2048 + 1 * t'.val = t'.val; rw [e1]; omega
  | ⟨2, _⟩ => show win0_0.index t 2 * 1024 + 1 * d.val = d.val; rw [e2]; omega

theorem qblk_apply (c : Dev nD) (t : Fin cfg0.N) (d : Fin 1024) (h : Fin 64) :
    (iblk m c 1 t : FVec Ideal S1024x64 .f32) (ix2 d h) = arrQ m c (ix2 d h) := by
  obtain ⟨-, -, -, e0, e1, -⟩ := idx_facts t
  unfold iblk
  rw [View.read_apply]
  show V m c main_arg1 _ = m (c.tc.loc main_arg1) _
  unfold V
  congr 1
  funext a
  apply Fin.ext
  match a with
  | ⟨0, _⟩ => show win0_1.index t 0 * 1024 + 1 * d.val = d.val; rw [e0]; omega
  | ⟨1, _⟩ => show win0_1.index t 1 * 64 + 1 * h.val = h.val; rw [e1]; omega

theorem kblk_apply (c : Dev nD) (t : Fin cfg0.N) (d : Fin 1024) (h : Fin 64) :
    (iblk m c 2 t : FVec Ideal S1024x64 .f32) (ix2 d h) = arrK m c (ix2 d h) := by
  obtain ⟨-, -, -, -, -, e0, e1, -⟩ := idx_facts t
  unfold iblk
  rw [View.read_apply]
  show V m c main_arg2 _ = m (c.tc.loc main_arg2) _
  unfold V
  congr 1
  funext a
  apply Fin.ext
  match a with
  | ⟨0, _⟩ => show win0_2.index t 0 * 1024 + 1 * d.val = d.val; rw [e0]; omega
  | ⟨1, _⟩ => show win0_2.index t 1 * 64 + 1 * h.val = h.val; rw [e1]; omega

theorem vblk_apply (c : Dev nD) (t : Fin cfg0.N) (d : Fin 1024) (h : Fin 64) :
    (iblk m c 3 t : FVec Ideal S1024x64 .f32) (ix2 d h) = arrV m c (ix2 d h) := by
  obtain ⟨-, -, -, -, -, -, -, e0, e1, -⟩ := idx_facts t
  unfold iblk
  rw [View.read_apply]
  show V m c main_arg3 _ = m (c.tc.loc main_arg3) _
  unfold V
  congr 1
  funext a
  apply Fin.ext
  match a with
  | ⟨0, _⟩ => show win0_3.index t 0 * 1024 + 1 * d.val = d.val; rw [e0]; omega
  | ⟨1, _⟩ => show win0_3.index t 1 * 64 + 1 * h.val = h.val; rw [e1]; omega

/-! ## Real inputs -/

/-- Every entry of the four arguments on core c is a real number. -/
structure RealArgs (c : Dev nD) : Prop where
  hx : ∀ i, ∃ r : ℝ, arrX m c i = (r : EReal)
  hq : ∀ i, ∃ r : ℝ, arrQ m c i = (r : EReal)
  hk : ∀ i, ∃ r : ℝ, arrK m c i = (r : EReal)
  hv : ∀ i, ∃ r : ℝ, arrV m c i = (r : EReal)

variable {m}

theorem RealArgs.x_eq {c : Dev nD} (hR : RealArgs m c) (b : Fin 8) (t : Fin 2048) (d : Fin 1024) :
    arrX m c (ix3 b t d) = ((xr m c b t d : ℝ) : EReal) := by
  obtain ⟨r, hr⟩ := hR.hx (ix3 b t d)
  unfold xr; rw [hr, EReal.toReal_coe]

theorem RealArgs.q_eq {c : Dev nD} (hR : RealArgs m c) (d : Fin 1024) (h : Fin 64) :
    arrQ m c (ix2 d h) = ((wqr m c d h : ℝ) : EReal) := by
  obtain ⟨r, hr⟩ := hR.hq (ix2 d h)
  unfold wqr; rw [hr, EReal.toReal_coe]

theorem RealArgs.k_eq {c : Dev nD} (hR : RealArgs m c) (d : Fin 1024) (h : Fin 64) :
    arrK m c (ix2 d h) = ((wkr m c d h : ℝ) : EReal) := by
  obtain ⟨r, hr⟩ := hR.hk (ix2 d h)
  unfold wkr; rw [hr, EReal.toReal_coe]

theorem RealArgs.v_eq {c : Dev nD} (hR : RealArgs m c) (d : Fin 1024) (h : Fin 64) :
    arrV m c (ix2 d h) = ((wvr m c d h : ℝ) : EReal) := by
  obtain ⟨r, hr⟩ := hR.hv (ix2 d h)
  unfold wvr; rw [hr, EReal.toReal_coe]

variable (m)

/-! ## What a grid point leaves in its output block, entry by entry -/

/-- A row of the sequence is row r of one of the four tiles. -/
theorem row_cases (t' : Fin 2048) :
    (∃ r : Fin 512, ∃ hlt : 0 + r.val < 2048, t' = ⟨0 + r.val, hlt⟩ ∧ t' = rowOf 0 r)
    ∨ (∃ r : Fin 512, ∃ hlt : 512 + r.val < 2048, t' = ⟨512 + r.val, hlt⟩ ∧ t' = rowOf 1 r)
    ∨ (∃ r : Fin 512, ∃ hlt : 1024 + r.val < 2048, t' = ⟨1024 + r.val, hlt⟩ ∧ t' = rowOf 2 r)
    ∨ (∃ r : Fin 512, ∃ hlt : 1536 + r.val < 2048, t' = ⟨1536 + r.val, hlt⟩ ∧ t' = rowOf 3 r) := by
  have h2048 := t'.isLt
  by_cases c0 : t'.val < 512
  · exact Or.inl ⟨⟨t'.val, c0⟩, by omega, Fin.ext (by simp), Fin.ext (by simp [rowOf])⟩
  by_cases c1 : t'.val < 1024
  · exact Or.inr (Or.inl ⟨⟨t'.val - 512, by omega⟩, by simp only []; omega, Fin.ext (by simp only []; omega), Fin.ext (by simp only [rowOf]; omega)⟩)
  by_cases c2 : t'.val < 1536
  · exact Or.inr (Or.inr (Or.inl ⟨⟨t'.val - 1024, by omega⟩, by simp only []; omega, Fin.ext (by simp only []; omega), Fin.ext (by simp only [rowOf]; omega)⟩))
  · exact Or.inr (Or.inr (Or.inr ⟨⟨t'.val - 1536, by omega⟩, by simp only []; omega, Fin.ext (by simp only []; omega), Fin.ext (by simp only [rowOf]; omega)⟩))

/-- The block's canonical contents at (0, t', h), for real block and weights. -/
theorem canon_apply (x : Fin 2048 → Fin 1024 → ℝ) (wq wk wv : Fin 1024 → Fin 64 → ℝ)
    (x0 : FVec Ideal S1x2048x1024 .f32) (x1 x2 x3 : FVec Ideal S1024x64 .f32)
    (hx : ∀ t d, x0 (ix3 0 t d) = ((x t d : ℝ) : EReal))
    (h1 : ∀ d h, x1 (ix2 d h) = ((wq d h : ℝ) : EReal))
    (h2 : ∀ d h, x2 (ix2 d h) = ((wk d h : ℝ) : EReal))
    (h3 : ∀ d h, x3 (ix2 d h) = ((wv d h : ℝ) : EReal))
    (t' : Fin 2048) (h : Fin 64) :
    View.canon (pieces (F := Ideal) x0 x1 x2 x3) (ix3 (0 : Fin 1) t' h) = ((attn x wq wk wv t' h : ℝ) : EReal) := by
  rcases row_cases t' with ⟨r, hlt, e, e'⟩ | ⟨r, hlt, e, e'⟩ | ⟨r, hlt, e, e'⟩ | ⟨r, hlt, e, e'⟩
  · rw [e, canon_row0 (F := Ideal) x0 x1 x2 x3 r h hlt, blk0_apply x wq wk wv x0 x1 x2 x3 hx h1 h2 h3 r h, show rowOf _ r = _ from e'.symm.trans e]
  · rw [e, canon_row1 (F := Ideal) x0 x1 x2 x3 r h hlt, blk1_apply x wq wk wv x0 x1 x2 x3 hx h1 h2 h3 r h, show rowOf _ r = _ from e'.symm.trans e]
  · rw [e, canon_row2 (F := Ideal) x0 x1 x2 x3 r h hlt, blk2_apply x wq wk wv x0 x1 x2 x3 hx h1 h2 h3 r h, show rowOf _ r = _ from e'.symm.trans e]
  · rw [e, canon_row3 (F := Ideal) x0 x1 x2 x3 r h hlt, blk3_apply x wq wk wv x0 x1 x2 x3 hx h1 h2 h3 r h, show rowOf _ r = _ from e'.symm.trans e]

/-- WHAT POINT t WRITES BACK is block t of the result array `G`. -/
theorem flushed_eq (c : Dev nD) (hR : RealArgs m c) (t : Fin cfg0.N) :
    (dats m 0 c).flushed 4 t = ((cfg0.win 4).blk t).view.read (Elt Ideal) (G m c) := by
  rw [flushed4_A]
  funext y
  obtain ⟨a, t', h, rfl⟩ : ∃ (a : Fin 1) (t' : Fin 2048) (h : Fin 64), y = ix3 a t' h := ⟨y 0, y 1, y 2, eq_ix3 y⟩
  obtain rfl : a = 0 := Subsingleton.elim _ _
  obtain ⟨-, -, -, -, -, -, -, -, -, e0, e1, e2⟩ := idx_facts t
  show out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (ix3 (0 : Fin 1) t' h)
    = G m c (((cfg0.win 4).blk t).view.emb (ix3 (0 : Fin 1) t' h))
  rw [out_eq_canon,
    canon_apply (xr m c ⟨t.val, lt8 t⟩) (wqr m c) (wkr m c) (wvr m c) (iblk m c 0 t) (iblk m c 1 t) (iblk m c 2 t) (iblk m c 3 t)
      (fun t'' d => (xblk_apply m c t t'' d).trans (hR.x_eq _ _ _))
      (fun d h => (qblk_apply m c t d h).trans (hR.q_eq d h))
      (fun d h => (kblk_apply m c t d h).trans (hR.k_eq d h))
      (fun d h => (vblk_apply m c t d h).trans (hR.v_eq d h)) t' h]
  symm
  exact G_apply m c _ ⟨t.val, lt8 t⟩ t' h
    (by show win0_4.index t 0 * 1 + 1 * 0 = t.val; rw [e0]; omega)
    (by show win0_4.index t 1 * 2048 + 1 * t'.val = t'.val; rw [e1]; omega)
    (by show win0_4.index t 2 * 64 + 1 * h.val = h.val; rw [e2]; omega)

/-- An index of the result array is in point t's block iff each coordinate is in the block's range. -/
theorem mem_blk (t : Fin cfg0.N) (i : S8x2048x64.Idx) :
    i ∈ ((cfg0.win 4).blk t).view.set ↔ ∀ a : Fin 3, win0_4.index t a * S1x2048x64.size a ≤ (i a).val
      ∧ (i a).val < win0_4.index t a * S1x2048x64.size a + S1x2048x64.size a := by
  show i ∈ ((View.whole main_v0).slice (win0_4.rect t)).set ↔ _
  rw [View.set_slice_whole, Rect.mem_set_unit]
  exact Iff.rfl

/-- Every index of the result array is in its batch's block. -/
theorem cover (i : S8x2048x64.Idx) : ∃ t : Fin cfg0.N, (cfg0.win 4).flush t = true ∧ i ∈ ((cfg0.win 4).blk t).view.set := by
  have hb : (i 0).val < 8 := (i 0).isLt
  have ht : (i 1).val < 2048 := (i 1).isLt
  have hh : (i 2).val < 64 := (i 2).isLt
  have hN : cfg0.N = 8 := N_0
  refine ⟨⟨(i 0).val, by rw [hN]; exact hb⟩, flush0_4 _, ?_⟩
  obtain ⟨-, -, -, -, -, -, -, -, -, e0, e1, e2⟩ := idx_facts ⟨(i 0).val, by rw [hN]; exact hb⟩
  rw [mem_blk]
  intro a
  match a with
  | ⟨0, _⟩ =>
    show win0_4.index _ 0 * 1 ≤ (i 0).val ∧ (i 0).val < win0_4.index _ 0 * 1 + 1
    rw [e0]; show (i 0).val * 1 ≤ (i 0).val ∧ (i 0).val < (i 0).val * 1 + 1; omega
  | ⟨1, _⟩ =>
    show win0_4.index _ 1 * 2048 ≤ (i 1).val ∧ (i 1).val < win0_4.index _ 1 * 2048 + 2048
    rw [e1]; omega
  | ⟨2, _⟩ =>
    show win0_4.index _ 2 * 64 ≤ (i 2).val ∧ (i 2).val < win0_4.index _ 2 * 64 + 64
    rw [e2]; omega

/-- THE RESULT ARRAY after the run is `G`. -/
theorem final (c : Dev nD) (hR : RealArgs m c) : (dats m 0 c).arrAt 4 cfg0.N = G m c :=
  (dats m 0 c).arrAt_eq_of_cover 4 (G m c) (fun t _ => flushed_eq m c hR t) cover

/-- The run, read: the result array at `G`, the arguments unchanged. -/
theorem run (hR : ∀ c, RealArgs m c) : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hR c)), (h c).2⟩) (Cert.KernelIdeal.Value.run_blocks m ρ)

end Cert.KernelIdeal.Arr

end
-- ==== Proof.RefValue.lean ====
/-
  The reference program's result read at an index: under real inputs, entry (b, t, h) of the plain
  softmax attention is the specification's attention output of batch b's sequence.

  The reading goes stage by stage. The three projections are matrix products of real entries, so each
  is the coercion of the specification's projection. The score is the inner product of the query and key
  projections times the constant 1 / sqrt 64 = 1/8. The causal mask compares the row index with the
  column index as small non-negative words, so it is set exactly when the key is not after the query,
  and the masked score is the specification's (minus infinity where masked). The row maximum is the
  maximum over the keys from minus infinity, the weights are e to the masked score less that maximum,
  the normaliser their sum from zero, and the output the sum over the keys of weight over normaliser
  times the value projection: the plain softmax average, which the softmax lemma evaluates.
-/
import proofs.«421553_j55147380081195_3_alg».proof.Proof.Gen.ReferenceIdeal.Read
import proofs.«421553_j55147380081195_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

set_option maxRecDepth 16384

noncomputable section

open scoped BigOperators

namespace Cert.ReferenceIdeal.RefValue

open Idealize.ShloMosaic Idealize.ShloMosaic.ValueIdx Idealize.SL.Sem Cert.ReferenceIdeal Cert.ReferenceIdeal.Gen Cert.ReferenceIdeal.Read

/-- The coercion of a finite real sum is the sum of the coercions. -/
private theorem coe_sum {ι : Type*} (s : Finset ι) (f : ι → ℝ) :
    ((∑ k ∈ s, f k : ℝ) : EReal) = ∑ k ∈ s, (f k : EReal) := by
  classical
  induction s using Finset.induction_on with
  | empty => simp
  | insert a t ha ih => rw [Finset.sum_insert ha, Finset.sum_insert ha, EReal.coe_add, ih]

/-- The query projection at (b, t, h): row t of batch b's sequence times column h of the matrix. -/
private theorem q_apply (X : (⟨S8x2048x1024, .f32⟩ : BufTy).Contents (Elt Ideal)) (W : (⟨S1024x64, .f32⟩ : BufTy).Contents (Elt Ideal))
    (x : Fin 8 → Fin 2048 → Fin 1024 → ℝ) (w : Fin 1024 → Fin 64 → ℝ)
    (hX : ∀ b t d, X (ix3 b t d) = ((x b t d : ℝ) : EReal))
    (hW : ∀ d h, W (ix2 d h) = ((w d h : ℝ) : EReal))
    (b : Fin 8) (t : Fin 2048) (h : Fin 64) :
    val_main_v0 (F := Ideal) X W (ix3 b t h) = ((Cert.Spec.proj (x b) w t h : ℝ) : EReal) := by
  rw [val_main_v0_apply]
  unfold Cert.Spec.proj
  rw [coe_sum]
  refine Finset.sum_congr rfl fun k _ => ?_
  have el : lidx_main_v0 (ix3 b t h) k = ix3 b t k :=
    funext fun a => Fin.ext (by match a with | ⟨0, _⟩ => rfl | ⟨1, _⟩ => rfl | ⟨2, _⟩ => rfl)
  have er : ridx_main_v0 (ix3 b t h) k = ix2 k h :=
    funext fun a => Fin.ext (by match a with | ⟨0, _⟩ => rfl | ⟨1, _⟩ => rfl)
  rw [el, er, hX, hW, EReal.coe_mul]

/-- The key projection at (b, t, h), likewise. -/
private theorem k_apply (X : (⟨S8x2048x1024, .f32⟩ : BufTy).Contents (Elt Ideal)) (W : (⟨S1024x64, .f32⟩ : BufTy).Contents (Elt Ideal))
    (x : Fin 8 → Fin 2048 → Fin 1024 → ℝ) (w : Fin 1024 → Fin 64 → ℝ)
    (hX : ∀ b t d, X (ix3 b t d) = ((x b t d : ℝ) : EReal))
    (hW : ∀ d h, W (ix2 d h) = ((w d h : ℝ) : EReal))
    (b : Fin 8) (t : Fin 2048) (h : Fin 64) :
    val_main_v1 (F := Ideal) X W (ix3 b t h) = ((Cert.Spec.proj (x b) w t h : ℝ) : EReal) := by
  rw [val_main_v1_apply]
  unfold Cert.Spec.proj
  rw [coe_sum]
  refine Finset.sum_congr rfl fun k _ => ?_
  have el : lidx_main_v1 (ix3 b t h) k = ix3 b t k :=
    funext fun a => Fin.ext (by match a with | ⟨0, _⟩ => rfl | ⟨1, _⟩ => rfl | ⟨2, _⟩ => rfl)
  have er : ridx_main_v1 (ix3 b t h) k = ix2 k h :=
    funext fun a => Fin.ext (by match a with | ⟨0, _⟩ => rfl | ⟨1, _⟩ => rfl)
  rw [el, er, hX, hW, EReal.coe_mul]

/-- The value projection at (b, t, h), likewise. -/
private theorem v_apply (X : (⟨S8x2048x1024, .f32⟩ : BufTy).Contents (Elt Ideal)) (W : (⟨S1024x64, .f32⟩ : BufTy).Contents (Elt Ideal))
    (x : Fin 8 → Fin 2048 → Fin 1024 → ℝ) (w : Fin 1024 → Fin 64 → ℝ)
    (hX : ∀ b t d, X (ix3 b t d) = ((x b t d : ℝ) : EReal))
    (hW : ∀ d h, W (ix2 d h) = ((w d h : ℝ) : EReal))
    (b : Fin 8) (t : Fin 2048) (h : Fin 64) :
    val_main_v2 (F := Ideal) X W (ix3 b t h) = ((Cert.Spec.proj (x b) w t h : ℝ) : EReal) := by
  rw [val_main_v2_apply]
  unfold Cert.Spec.proj
  rw [coe_sum]
  refine Finset.sum_congr rfl fun k _ => ?_
  have el : lidx_main_v2 (ix3 b t h) k = ix3 b t k :=
    funext fun a => Fin.ext (by match a with | ⟨0, _⟩ => rfl | ⟨1, _⟩ => rfl | ⟨2, _⟩ => rfl)
  have er : ridx_main_v2 (ix3 b t h) k = ix2 k h :=
    funext fun a => Fin.ext (by match a with | ⟨0, _⟩ => rfl | ⟨1, _⟩ => rfl)
  rw [el, er, hX, hW, EReal.coe_mul]

/-- The scale factor: one over the square root of 64, the real number 1/8. -/
private theorem scale_apply (i : S8x2048x2048.Idx) : val_main_v6 (F := Ideal) i = ((1 / 8 : ℝ) : EReal) := by
  rw [val_main_v6_apply, val_main_v4_apply, val_main_cst_0_apply, val_main_v3_apply, val_main_cst_apply]
  simp only [Ideal.hostDivf_def, Ideal.hostUnary_sqrt_def, Ideal.ofBits_def]
  have h64 : Ideal.ofBits .f32 0x42800000#32 = ((64 : ℝ) : EReal) := by
    simp [Ideal.ofBits, Ideal.ieee]
    rw [← EReal.coe_mul]; norm_num
  have h1 : Ideal.ofBits .f32 0x3F800000#32 = ((1 : ℝ) : EReal) := by
    simp [Ideal.ofBits, Ideal.ieee]
    rw [← EReal.coe_mul]; norm_num
  rw [h64, h1, Ideal.sqrt_coe, if_neg (by norm_num), show (64 : ℝ) = 8 ^ 2 by norm_num, Real.sqrt_sq (by norm_num),
    Ideal.div_coe (by norm_num), ← EReal.coe_mul, one_mul]

/-- The pattern 0xFF800000 is minus infinity. -/
private theorem neg_inf : Ideal.ofBits .f32 0xFF800000#32 = ⊥ := by
  simp [Ideal.ofBits, Ideal.ieee]

/-- The scaled score at (b, t, k): the inner product of the two projections, times 1/8. -/
private theorem score_apply (X : (⟨S8x2048x1024, .f32⟩ : BufTy).Contents (Elt Ideal)) (W1 : (⟨S1024x64, .f32⟩ : BufTy).Contents (Elt Ideal)) (W2 : (⟨S1024x64, .f32⟩ : BufTy).Contents (Elt Ideal))
    (x : Fin 8 → Fin 2048 → Fin 1024 → ℝ) (wq wk : Fin 1024 → Fin 64 → ℝ)
    (hX : ∀ b t d, X (ix3 b t d) = ((x b t d : ℝ) : EReal))
    (h1 : ∀ d h, W1 (ix2 d h) = ((wq d h : ℝ) : EReal))
    (h2 : ∀ d h, W2 (ix2 d h) = ((wk d h : ℝ) : EReal))
    (b : Fin 8) (t k : Fin 2048) :
    val_main_v7 (F := Ideal) X W1 W2 (ix3 b t k) = ((Cert.Spec.score (x b) wq wk t k : ℝ) : EReal) := by
  rw [val_main_v7_apply, val_main_v5_apply, scale_apply]
  unfold Cert.Spec.score
  simp only [Ideal.mulf_def]
  rw [EReal.coe_mul, coe_sum]
  congr 1
  refine Finset.sum_congr rfl fun j _ => ?_
  have el : lidx_main_v5 (ix3 b t k) j = ix3 b t j :=
    funext fun a => Fin.ext (by match a with | ⟨0, _⟩ => rfl | ⟨1, _⟩ => rfl | ⟨2, _⟩ => rfl)
  have er : ridx_main_v5 (ix3 b t k) j = ix3 b k j :=
    funext fun a => Fin.ext (by match a with | ⟨0, _⟩ => rfl | ⟨1, _⟩ => rfl | ⟨2, _⟩ => rfl)
  rw [el, er, q_apply X W1 x wq hX h1, k_apply X W2 x wk hX h2, EReal.coe_mul]

/-- The causal mask at (b, t, k): set exactly when the key is not after the query. -/
private theorem mask_apply (b : Fin 8) (t k : Fin 2048) :
    val_main_call1_v0 (F := Ideal) (ix3 b t k) = if k ≤ t then 1#1 else 0#1 := by
  have e : idx_main_v10 (idx_main_call1_v0 (ix3 b t k)) = ix2 t k :=
    funext fun a => Fin.ext (by match a with | ⟨0, _⟩ => rfl | ⟨1, _⟩ => rfl)
  rw [val_main_call1_v0_apply, val_main_v10_apply, e, val_main_v9_apply, val_main_call0_v4_apply, val_main_call0_v2_apply,
    val_main_call0_v0_apply, val_main_call0_v1_apply, val_main_call0_c_apply, val_main_call0_v3_apply, val_main_v8_apply,
    val_main_c_apply, val_main_call0_v5_apply, val_main_call0_c_0_apply]
  show Scalar.select (IntOp.cmpi .sge (IntOp.addi (BitVec.ofNat 32 t.val) 0#32) (BitVec.ofNat 32 k.val)) 1#1 0#1 = _
  have ht : (IntOp.addi (BitVec.ofNat 32 t.val) 0#32).toNat = t.val := by
    unfold IntOp.addi
    rw [BitVec.add_zero, BitVec.toNat_ofNat]
    exact Nat.mod_eq_of_lt (by have := t.isLt; omega)
  have hk : (BitVec.ofNat 32 k.val).toNat = k.val := by
    rw [BitVec.toNat_ofNat]; exact Nat.mod_eq_of_lt (by have := k.isLt; omega)
  have hiff := Idealize.ShloMosaic.StableHlo.Predicate.sge_iff_toNat
    (a := IntOp.addi (BitVec.ofNat 32 t.val) 0#32) (b := BitVec.ofNat 32 k.val)
    (by rw [ht]; have := t.isLt; omega) (by rw [hk]; have := k.isLt; omega)
  rw [ht, hk] at hiff
  by_cases hkt : k ≤ t
  · rw [if_pos hkt, hiff.mpr hkt, select_one]
  · rw [if_neg hkt, eq_zero_of_ne_one (fun hc => hkt (hiff.mp hc)), select_zero]

/-- The masked score at (b, t, k) is the specification's. -/
private theorem masked_apply (X : (⟨S8x2048x1024, .f32⟩ : BufTy).Contents (Elt Ideal)) (W1 : (⟨S1024x64, .f32⟩ : BufTy).Contents (Elt Ideal)) (W2 : (⟨S1024x64, .f32⟩ : BufTy).Contents (Elt Ideal))
    (x : Fin 8 → Fin 2048 → Fin 1024 → ℝ) (wq wk : Fin 1024 → Fin 64 → ℝ)
    (hX : ∀ b t d, X (ix3 b t d) = ((x b t d : ℝ) : EReal))
    (h1 : ∀ d h, W1 (ix2 d h) = ((wq d h : ℝ) : EReal))
    (h2 : ∀ d h, W2 (ix2 d h) = ((wk d h : ℝ) : EReal))
    (b : Fin 8) (t k : Fin 2048) :
    val_main_v11 (F := Ideal) X W1 W2 (ix3 b t k) = Cert.Spec.smask (x b) wq wk t k := by
  rw [val_main_v11_apply, mask_apply, score_apply X W1 W2 x wq wk hX h1 h2, val_main_call1_v1_apply, val_main_cst_1_apply,
    Ideal.ofBits_def, neg_inf]
  unfold Cert.Spec.smask
  by_cases hkt : k ≤ t
  · rw [if_pos hkt, if_pos hkt, select_one]
  · rw [if_neg hkt, if_neg hkt, select_zero]

/-- The row maximum at (b, t): the maximum over the keys of the masked scores, from minus infinity. -/
private theorem rowmax_apply (X : (⟨S8x2048x1024, .f32⟩ : BufTy).Contents (Elt Ideal)) (W1 : (⟨S1024x64, .f32⟩ : BufTy).Contents (Elt Ideal)) (W2 : (⟨S1024x64, .f32⟩ : BufTy).Contents (Elt Ideal))
    (x : Fin 8 → Fin 2048 → Fin 1024 → ℝ) (wq wk : Fin 1024 → Fin 64 → ℝ)
    (hX : ∀ b t d, X (ix3 b t d) = ((x b t d : ℝ) : EReal))
    (h1 : ∀ d h, W1 (ix2 d h) = ((wq d h : ℝ) : EReal))
    (h2 : ∀ d h, W2 (ix2 d h) = ((wk d h : ℝ) : EReal))
    (b : Fin 8) (t : Fin 2048) :
    val_main_v12 (F := Ideal) X W1 W2 (ix2 b t) = Finset.univ.fold max ⊥ (Cert.Spec.smask (x b) wq wk t) := by
  have hy : ∀ k, val_main_v11 (F := Ideal) X W1 W2 (ix3 b t k) = Cert.Spec.smask (x b) wq wk t k :=
    fun k => masked_apply X W1 W2 x wq wk hX h1 h2 b t k
  unfold val_main_v12
  generalize val_main_v11 (F := Ideal) X W1 W2 = y at hy
  have hr : S8x2048x2048.Reduces [2] S8x2048 := by decide
  refine (Host.reduce_eq_fold_single (FloatOps.maximumf (F := Ideal) (φ := .f32)) y _
    reducesTo_S8x2048x2048_S8x2048_d2 hr h_S_ (ix2 b t)).trans ?_
  have hf : y ∘ hr.lift (ix2 b t) = Cert.Spec.smask (x b) wq wk t := funext fun (k : Fin 2048) => by
    show y (hr.lift (ix2 b t) k) = _
    rw [show hr.lift (ix2 b t) k = ix3 b t k from
      funext fun a => Fin.ext (by match a with | ⟨0, _⟩ => rfl | ⟨1, _⟩ => rfl | ⟨2, _⟩ => rfl), hy]
  have hinit : val_main_cst_2 (F := Ideal) (Shape.Idx.first h_S_) = ⊥ := by
    rw [val_main_cst_2_apply, Ideal.ofBits_def, neg_inf]
  rw [hinit, hf]
  rfl

/-- The unnormalised weight at (b, t, k): e to the masked score less the row maximum. -/
private theorem exp_apply (X : (⟨S8x2048x1024, .f32⟩ : BufTy).Contents (Elt Ideal)) (W1 : (⟨S1024x64, .f32⟩ : BufTy).Contents (Elt Ideal)) (W2 : (⟨S1024x64, .f32⟩ : BufTy).Contents (Elt Ideal))
    (x : Fin 8 → Fin 2048 → Fin 1024 → ℝ) (wq wk : Fin 1024 → Fin 64 → ℝ)
    (hX : ∀ b t d, X (ix3 b t d) = ((x b t d : ℝ) : EReal))
    (h1 : ∀ d h, W1 (ix2 d h) = ((wq d h : ℝ) : EReal))
    (h2 : ∀ d h, W2 (ix2 d h) = ((wk d h : ℝ) : EReal))
    (b : Fin 8) (t k : Fin 2048) :
    val_main_v18 (F := Ideal) X W1 W2 (ix3 b t k) = Ideal.exp (Cert.Spec.smask (x b) wq wk t k - max ⊥ (Finset.univ.fold max ⊥ (Cert.Spec.smask (x b) wq wk t))) := by
  have e : idx_main_v15 (idx_main_v16 (ix3 b t k)) = ix2 b t :=
    funext fun a => Fin.ext (by match a with | ⟨0, _⟩ => rfl | ⟨1, _⟩ => rfl)
  rw [val_main_v18_apply, val_main_v17_apply, masked_apply X W1 W2 x wq wk hX h1 h2, val_main_v16_apply, val_main_v15_apply, e,
    val_main_v14_apply, val_main_v13_apply, val_main_cst_3_apply, rowmax_apply X W1 W2 x wq wk hX h1 h2,
    Ideal.hostUnary_exp_def, Ideal.subf_def, Ideal.maximumf_def, Ideal.ofBits_def, neg_inf]

/-- The normaliser at (b, t): the sum over the keys of the weights, from zero. -/
private theorem denom_apply (X : (⟨S8x2048x1024, .f32⟩ : BufTy).Contents (Elt Ideal)) (W1 : (⟨S1024x64, .f32⟩ : BufTy).Contents (Elt Ideal)) (W2 : (⟨S1024x64, .f32⟩ : BufTy).Contents (Elt Ideal))
    (x : Fin 8 → Fin 2048 → Fin 1024 → ℝ) (wq wk : Fin 1024 → Fin 64 → ℝ)
    (hX : ∀ b t d, X (ix3 b t d) = ((x b t d : ℝ) : EReal))
    (h1 : ∀ d h, W1 (ix2 d h) = ((wq d h : ℝ) : EReal))
    (h2 : ∀ d h, W2 (ix2 d h) = ((wk d h : ℝ) : EReal))
    (b : Fin 8) (t : Fin 2048) :
    val_main_v19 (F := Ideal) X W1 W2 (ix2 b t) = 0 + ∑ j, Ideal.exp (Cert.Spec.smask (x b) wq wk t j - max ⊥ (Finset.univ.fold max ⊥ (Cert.Spec.smask (x b) wq wk t))) := by
  rw [val_main_v19_apply, val_main_cst_4_apply, Ideal.ofBits_def, Ideal.ofBits_zero_f32]
  congr 1
  refine Finset.sum_congr rfl fun j _ => ?_
  rw [show idx_main_v19 (ix2 b t) j = ix3 b t j from
    funext fun a => Fin.ext (by match a with | ⟨0, _⟩ => rfl | ⟨1, _⟩ => rfl | ⟨2, _⟩ => rfl),
    exp_apply X W1 W2 x wq wk hX h1 h2]

/-- The probability at (b, t, k): the weight over the normaliser. -/
private theorem prob_apply (X : (⟨S8x2048x1024, .f32⟩ : BufTy).Contents (Elt Ideal)) (W1 : (⟨S1024x64, .f32⟩ : BufTy).Contents (Elt Ideal)) (W2 : (⟨S1024x64, .f32⟩ : BufTy).Contents (Elt Ideal))
    (x : Fin 8 → Fin 2048 → Fin 1024 → ℝ) (wq wk : Fin 1024 → Fin 64 → ℝ)
    (hX : ∀ b t d, X (ix3 b t d) = ((x b t d : ℝ) : EReal))
    (h1 : ∀ d h, W1 (ix2 d h) = ((wq d h : ℝ) : EReal))
    (h2 : ∀ d h, W2 (ix2 d h) = ((wk d h : ℝ) : EReal))
    (b : Fin 8) (t k : Fin 2048) :
    val_main_v22 (F := Ideal) X W1 W2 (ix3 b t k)
      = Ideal.div (Ideal.exp (Cert.Spec.smask (x b) wq wk t k - max ⊥ (Finset.univ.fold max ⊥ (Cert.Spec.smask (x b) wq wk t)))) (0 + ∑ j, Ideal.exp (Cert.Spec.smask (x b) wq wk t j - max ⊥ (Finset.univ.fold max ⊥ (Cert.Spec.smask (x b) wq wk t)))) := by
  have e : idx_main_v20 (idx_main_v21 (ix3 b t k)) = ix2 b t :=
    funext fun a => Fin.ext (by match a with | ⟨0, _⟩ => rfl | ⟨1, _⟩ => rfl)
  rw [val_main_v22_apply, exp_apply X W1 W2 x wq wk hX h1 h2, val_main_v21_apply, val_main_v20_apply, e,
    denom_apply X W1 W2 x wq wk hX h1 h2, Ideal.hostDivf_def]

theorem ref_apply (X : (⟨S8x2048x1024, .f32⟩ : BufTy).Contents (Elt Ideal)) (W1 W2 W3 : (⟨S1024x64, .f32⟩ : BufTy).Contents (Elt Ideal))
    (x : Fin 8 → Fin 2048 → Fin 1024 → ℝ) (wq wk wv : Fin 1024 → Fin 64 → ℝ)
    (hX : ∀ b t d, X (ix3 b t d) = ((x b t d : ℝ) : EReal))
    (h1 : ∀ d h, W1 (ix2 d h) = ((wq d h : ℝ) : EReal))
    (h2 : ∀ d h, W2 (ix2 d h) = ((wk d h : ℝ) : EReal))
    (h3 : ∀ d h, W3 (ix2 d h) = ((wv d h : ℝ) : EReal))
    (b : Fin 8) (t : Fin 2048) (h : Fin 64) :
    val_main_v23 (F := Ideal) X W1 W2 W3 (ix3 b t h) = ((Cert.Spec.attn (x b) wq wk wv t h : ℝ) : EReal) := by
  -- a masked score is a real number or minus infinity, and the query's own key is never masked
  have hs : ∀ k, Cert.Spec.smask (x b) wq wk t k ≠ ⊤ := by
    intro k
    unfold Cert.Spec.smask
    by_cases hkt : k ≤ t
    · rw [if_pos hkt]; exact EReal.coe_ne_top _
    · rw [if_neg hkt]; exact bot_ne_top
  have hne : ∃ k, Cert.Spec.smask (x b) wq wk t k ≠ ⊥ := by
    refine ⟨t, ?_⟩
    unfold Cert.Spec.smask
    rw [if_pos le_rfl]; exact EReal.coe_ne_bot _
  unfold Cert.Spec.attn
  rw [val_main_v23_apply,
    ← Cert.OnlineSoftmax.softmax_row (Cert.Spec.smask (x b) wq wk t) (fun k => Cert.Spec.proj (x b) wv k h) hs hne]
  refine Finset.sum_congr rfl fun k _ => ?_
  have el : lidx_main_v23 (ix3 b t h) k = ix3 b t k :=
    funext fun a => Fin.ext (by match a with | ⟨0, _⟩ => rfl | ⟨1, _⟩ => rfl | ⟨2, _⟩ => rfl)
  have er : ridx_main_v23 (ix3 b t h) k = ix3 b k h :=
    funext fun a => Fin.ext (by match a with | ⟨0, _⟩ => rfl | ⟨1, _⟩ => rfl | ⟨2, _⟩ => rfl)
  rw [el, er, v_apply X W3 x wv hX h3, prob_apply X W1 W2 x wq wk hX h1 h2]

end Cert.ReferenceIdeal.RefValue

end
-- ==== Proof.Finite.lean ====
/-
  What the precondition gives: when the predicate "every input entry has absolute value below plus
  infinity" evaluates to true, every entry of the four inputs is a real number (neither infinity).
-/
import proofs.«421553_j55147380081195_3_alg».proof.Pre_finite_inputs
import Idealize.ShloMosaic.PureOps.Ideal
import Idealize.ShloMosaic.PureOps.Ideal.Laws
import Idealize.ShloMosaic.Lib.ReduceAll
import Idealize.ShloMosaic.Lib.ValueIdx

set_option maxRecDepth 16384

noncomputable section

namespace Cert.Finite

open Idealize.ShloMosaic Idealize.SL.Sem Cert.Pre_finite_inputs

variable [Cert.Pre_finite_inputs.Facts]

/-- The rank-0 shape has one index. -/
private instance subsingleton_scalar_idx : Subsingleton S_.Idx := ⟨fun a b => funext fun d => d.elim0⟩

/-- The bound literal is plus infinity. -/
private theorem ofBits_inf : Ideal.ofBits .f32 0x7F800000#32 = (⊤ : EReal) := by
  simp [Ideal.ofBits, Ideal.ieee]

/-- An extended real whose absolute value is below plus infinity is a real number. -/
theorem real_of_abs_lt (a : EReal)
    (h : FloatOps.cmpf (F := Ideal) (φ := .f32) .olt (FloatOps.hostAbsf (F := Ideal) (φ := .f32) a) (Ideal.ofBits .f32 0x7F800000#32) = 1#1) :
    ∃ r : ℝ, a = (r : EReal) := by
  rw [Ideal.cmpf_def, Ideal.hostAbsf_def, Ideal.absf_def, ofBits_inf] at h
  have hlt : max a (-a) < ⊤ := by
    by_contra hn
    have hz : Ideal.cmp .olt (max a (-a)) ⊤ = 0#1 := by
      show BitVec.ofBool (decide (max a (-a) < ⊤)) = 0#1
      rw [decide_eq_false hn]; rfl
    rw [hz] at h
    exact absurd h (by decide)
  induction a using EReal.rec with
  | bot => simp at hlt
  | coe r => exact ⟨r, rfl⟩
  | top => simp at hlt

theorem real_of_pre (a0 : FVec Ideal S8x2048x1024 .f32) (a1 a2 a3 : FVec Ideal S1024x64 .f32)
    (h : Cert.Pre_finite_inputs.fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ValueIdx.ix0
  dsimp only [fn, fn_part1] at h0
  have e : ∀ (p q : IVec S_ 1), andi p q ValueIdx.ix0 = IntOp.andi (p ValueIdx.ix0) (q ValueIdx.ix0) := fun _ _ => rfl
  rw [e, IntOp.andi_eq_one, e, IntOp.andi_eq_one, e, IntOp.andi_eq_one] at h0
  obtain ⟨⟨⟨h0a, h1a⟩, h2a⟩, h3a⟩ := h0
  refine ⟨fun i => real_of_abs_lt _ ?_, fun i => real_of_abs_lt _ ?_, fun i => real_of_abs_lt _ ?_, fun i => real_of_abs_lt _ ?_⟩
  · exact Host.reduce_andi_all _ _ _ _ _ h0a i
  · exact Host.reduce_andi_all _ _ _ _ _ h1a i
  · exact Host.reduce_andi_all _ _ _ _ _ h2a i
  · exact Host.reduce_andi_all _ _ _ _ _ h3a i

end Cert.Finite

end
-- ==== Proof.lean ====
/-
  The kernel computes single-head causal attention of eight sequences by the online (running-maximum)
  softmax over key tiles of 512 rows, one sequence per grid point; the reference computes it by the plain
  masked softmax over all 2048 keys. On the extended reals, with every input entry a real number (the
  precondition), both result arrays hold, at (b, t, h), the specification's value

      (sum over keys k <= t of e^{s(t,k)} v[k,h]) / (sum over keys k <= t of e^{s(t,k)}),

  where s(t,k) is one eighth of the inner product of the query and key projections of rows t and k of
  sequence b, and v the value projection. For the kernel this is the invariant of the online softmax
  carried across the key tiles of each query tile (the finite stand-in for minus infinity on the masked
  entries is named minus infinity, so that masked keys weigh nothing, exactly as in the reference); for
  the reference it is the identity e^{s - M} / sum e^{s - M} = e^{s} / sum e^{s} for the real row maximum M,
  and 1 / sqrt 64 = 1/8.

  The three frames are the generated ones (the reference's from its generated run); the idealization's
  ledger has one entry four times, the naming of the mask constant.
-/
import proofs.«421553_j55147380081195_3_alg».proof.Defs
import proofs.«421553_j55147380081195_3_alg».proof.Proof.Gen.Kernel
import proofs.«421553_j55147380081195_3_alg».proof.Proof.Gen.Kernel.Skeleton
import proofs.«421553_j55147380081195_3_alg».proof.Proof.Gen.Kernel.Launch
import proofs.«421553_j55147380081195_3_alg».proof.Proof.Gen.Kernel.Points
import proofs.«421553_j55147380081195_3_alg».proof.Proof.Gen.Kernel.Frame
import proofs.«421553_j55147380081195_3_alg».proof.Proof.Gen.KernelIdeal
import proofs.«421553_j55147380081195_3_alg».proof.Proof.Gen.KernelIdeal.Skeleton
import proofs.«421553_j55147380081195_3_alg».proof.Proof.Gen.KernelIdeal.Launch
import proofs.«421553_j55147380081195_3_alg».proof.Proof.Gen.KernelIdeal.Points
import proofs.«421553_j55147380081195_3_alg».proof.Proof.Gen.KernelIdeal.Frame
import proofs.«421553_j55147380081195_3_alg».proof.Proof.Gen.ReferenceIdeal
import proofs.«421553_j55147380081195_3_alg».proof.Proof.Gen.Pre_finite_inputs
import proofs.«421553_j55147380081195_3_alg».proof.Proof.Gen.KernelIdeal.Value
import proofs.«421553_j55147380081195_3_alg».proof.Proof.Gen.ReferenceIdeal.Run
import proofs.«421553_j55147380081195_3_alg».proof.Proof.Gen.ReferenceIdeal.Read
import proofs.«421553_j55147380081195_3_alg».proof.Proof.KernelArray
import proofs.«421553_j55147380081195_3_alg».proof.Proof.RefValue
import proofs.«421553_j55147380081195_3_alg».proof.Proof.Finite
import Idealize.ShloMosaic.Adequacy
import Idealize.ShloMosaic.Init

set_option maxRecDepth 16384

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The mask constant -0.7 * (largest finite f32) is named minus infinity. -/
theorem neg_big : IdealRules.named_const.Statement Cert.KernelIdeal.κ "neg_big" .f32 0xFF333332#32 ⊥ :=
  IdealRules.named_const.statement Cert.KernelIdeal.κ "neg_big" .f32 0xFF333332#32 ⊥ rfl

theorem preserves : Cert.preserves_Kernel_KernelIdeal := ⟨neg_big, neg_big, neg_big, neg_big⟩

/-- Both programs end with the specification's attention output in their result arrays. -/
theorem algebraic : Cert.algebraic_KernelIdeal_ReferenceIdeal := by
  intro m ρ m' ρ' hpre hagree
  have hR : ∀ c, Cert.KernelIdeal.Arr.RealArgs m c := fun c => by
    obtain ⟨a0, a1, a2, a3⟩ := Cert.Finite.real_of_pre _ _ _ _ (hpre c)
    exact ⟨a0, a1, a2, a3⟩
  refine ⟨fun c => Cert.KernelIdeal.Arr.G m c, Cert.KernelIdeal.Arr.run m ρ hR, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, (hagree c).1, (hagree c).2.1, (hagree c).2.2.1, (hagree c).2.2.2]
  funext i
  obtain ⟨b, t, h, rfl⟩ : ∃ (b : Fin 8) (t : Fin 2048) (h : Fin 64), i = ix3 b t h := ⟨i 0, i 1, i 2, eq_ix3 i⟩
  rw [Cert.ReferenceIdeal.RefValue.ref_apply _ _ _ _ (Cert.KernelIdeal.Arr.xr m c) (Cert.KernelIdeal.Arr.wqr m c)
    (Cert.KernelIdeal.Arr.wkr m c) (Cert.KernelIdeal.Arr.wvr m c) (hR c).x_eq (hR c).q_eq (hR c).k_eq (hR c).v_eq b t h]
  exact (Cert.KernelIdeal.Arr.G_apply m c _ b t h rfl rfl rfl).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
